-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S64x128 .f32) (main_arg9 : FVec F S64 .f32) (main_arg10 : FVec F S64x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_v48 main_v49 main_v50

def fn_part1 {F : FTy → Type} [FloatOps F] (main_arg4 : FVec F S64x128 .f32) (main_arg5 : FVec F S64 .f32) (main_arg6 : FVec F S64x64 .f32) (main_arg7 : FVec F S64 .f32) (main_arg8 : FVec F S64x128 .f32) (main_arg9 : FVec F S64 .f32) (main_arg10 : FVec F S64x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S64x128 .f32) (main_arg5 : FVec F S64 .f32) (main_arg6 : FVec F S64x64 .f32) (main_arg7 : FVec F S64 .f32) (main_arg8 : FVec F S64x128 .f32) (main_arg9 : FVec F S64 .f32) (main_arg10 : FVec F S64x64 .f32) (main_arg11 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x128 : Shape := ⟨2, ![1, 128]⟩
abbrev S1x64 : Shape := ⟨2, ![1, 64]⟩
abbrev S10000x64 : Shape := ⟨2, ![10000, 64]⟩
abbrev S512x10000 : Shape := ⟨2, ![512, 10000]⟩
abbrev S512x64 : Shape := ⟨2, ![512, 64]⟩
abbrev S512x128 : Shape := ⟨2, ![512, 128]⟩

abbrev nBuf : Space → Nat
  | .hbm => 19
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x128, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S10000x64, .f32⟩
  | .hbm, ⟨18, _⟩ => ⟨S10000x64, .f32⟩
  | .local _ .vmem, ⟨0, _⟩ => ⟨S10000x128, .f32⟩
  | .local _ .vmem, ⟨1, _⟩ => ⟨S512x10000, .f32⟩
  | .local _ .vmem, ⟨2, _⟩ => ⟨S512x10000, .f32⟩
  | .local _ .vmem, ⟨3, _⟩ => ⟨S128x128, .f32⟩
  | .local _ .vmem, ⟨4, _⟩ => ⟨S1x128, .f32⟩
  | .local _ .vmem, ⟨5, _⟩ => ⟨S64x128, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x128, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S512x10000_S512x10000_0_0 : ∀ a, (![0, 0] : Fin 2 → Nat) a + S512x10000.size a ≤ S512x10000.size a
  h_S512x10000 : 0 < S512x10000.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x64_S64x64_0_0 : ∀ a, (![0, 0] : Fin 2 → Nat) a + S64x64.size a ≤ S64x64.size a
  h_S64x64 : 0 < S64x64.numel
  inb_S512x64_S512x64_0_0 : ∀ a, (![0, 0] : Fin 2 → Nat) a + S512x64.size a ≤ S512x64.size a
  h_S512x64 : 0 < S512x64.numel
  dot_S10000x128_S128x128_S10000x128_1_1_0_0_n_n_wf : DotDims.WF S10000x128 S128x128 S10000x128 [1] [1] [0] [0] [] []
  dot_S512x10000_S10000x128_S512x128_1_0_0_1_n_n_wf : DotDims.WF S512x10000 S10000x128 S512x128 [1] [0] [0] [1] [] []
  dot_S512x128_S64x128_S512x64_1_1_0_0_n_n_wf : DotDims.WF S512x128 S64x128 S512x64 [1] [1] [0] [0] [] []
  dot_S512x64_S64x64_S512x64_1_1_0_0_n_n_wf : DotDims.WF S512x64 S64x64 S512x64 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x10000.size a < S10000x10000.size a
  hwx0_1 : ∀ i : grid0.Coords, EltTy.bits .f32 = 32 ∨ (Rect.unit (s := S10000x10000) (fun a => cc0_transform_1 i a * S512x10000.size a) (fun a => (Pipeline.Clip.of (cc0_transform_1 i a) (S512x10000.size a) (S10000x10000.size a)).extent (S512x10000.size a)) fun a => Pipeline.Clip.inb (Pipeline.Clip.ok_of (hstart0_1 i a))).WholeWords (EltTy.packing .f32)
  hwxs0_1 : ∀ i : grid0.Coords, EltTy.bits .f32 = 32 ∨ (Rect.unit (s := S512x10000) (fun _ => 0) (fun a => (Pipeline.Clip.of (cc0_transform_1 i a) (S512x10000.size a) (S10000x10000.size a)).extent (S512x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S512x64.size a < S10000x64.size a
  hwx0_12 : ∀ i : grid0.Coords, EltTy.bits .f32 = 32 ∨ (Rect.unit (s := S10000x64) (fun a => cc0_transform_12 i a * S512x64.size a) (fun a => (Pipeline.Clip.of (cc0_transform_12 i a) (S512x64.size a) (S10000x64.size a)).extent (S512x64.size a)) fun a => Pipeline.Clip.inb (Pipeline.Clip.ok_of (hstart0_12 i a))).WholeWords (EltTy.packing .f32)
  hwxs0_12 : ∀ i : grid0.Coords, EltTy.bits .f32 = 32 ∨ (Rect.unit (s := S512x64) (fun _ => 0) (fun a => (Pipeline.Clip.of (cc0_transform_12 i a) (S512x64.size a) (S10000x64.size a)).extent (S512x64.size a)) fun a => (Nat.zero_add _).trans_le (Pipeline.Clip.extent_le (Pipeline.Clip.ok_of (hstart0_12 i a)))).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S512x64.size a < S10000x64.size a
  hwx0_13 : ∀ i : grid0.Coords, EltTy.bits .f32 = 32 ∨ (Rect.unit (s := S10000x64) (fun a => cc0_transform_13 i a * S512x64.size a) (fun a => (Pipeline.Clip.of (cc0_transform_13 i a) (S512x64.size a) (S10000x64.size a)).extent (S512x64.size a)) fun a => Pipeline.Clip.inb (Pipeline.Clip.ok_of (hstart0_13 i a))).WholeWords (EltTy.packing .f32)
  hwxs0_13 : ∀ i : grid0.Coords, EltTy.bits .f32 = 32 ∨ (Rect.unit (s := S512x64) (fun _ => 0) (fun a => (Pipeline.Clip.of (cc0_transform_13 i a) (S512x64.size a) (S10000x64.size a)).extent (S512x64.size a)) fun a => (Nat.zero_add _).trans_le (Pipeline.Clip.extent_le (Pipeline.Clip.ok_of (hstart0_13 i a)))).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S512x10000_S10000x128_S512x128_1_0_0_1_n_n : DotDims S512x10000 S10000x128 S512x128 where
  lhsContracting := [1]
  rhsContracting := [0]
  lhsNonContracting := [0]
  rhsNonContracting := [1]
  lhsBatch := []
  rhsBatch := []
  wf := dot_S512x10000_S10000x128_S512x128_1_0_0_1_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpecClip (Memref.whole main_v5_0) S512x64.size cc0_transform_12 reads0_12 true false 2 stage0_12 sem0_12
    hrank0 hreads0_12 hstart0_12 nbuf0_12 (Memref.isWhole_whole _) hwx0_12 hwxs0_12 hstage0_12

abbrev win0_13 : Pipeline.Window sig grid0 :=
  Pipeline.Window.ofSpecClip (Memref.whole main_v5_1) S512x64.size cc0_transform_13 reads0_13 true false 2 stage0_13 sem0_13
    hrank0 hreads0_13 hstart0_13 nbuf0_13 (Memref.isWhole_whole _) hwx0_13 hwxs0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x128 : Shape := ⟨2, ![1, 128]⟩
abbrev S_ : Shape := ⟨0, ![]⟩
abbrev S128x64 : Shape := ⟨2, ![128, 64]⟩
abbrev S10000x64 : Shape := ⟨2, ![10000, 64]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S128x64, .f32⟩
  | .hbm, ⟨22, _⟩ => ⟨S10000x64, .f32⟩
  | .hbm, ⟨23, _⟩ => ⟨S1x64, .f32⟩
  | .hbm, ⟨24, _⟩ => ⟨S10000x64, .f32⟩
  | .hbm, ⟨25, _⟩ => ⟨S10000x64, .f32⟩
  | .hbm, ⟨26, _⟩ => ⟨S_, .f32⟩
  | .hbm, ⟨27, _⟩ => ⟨S10000x64, .f32⟩
  | .hbm, ⟨28, _⟩ => ⟨S10000x64, .f32⟩
  | .hbm, ⟨29, _⟩ => ⟨S64x64, .f32⟩
  | .hbm, ⟨30, _⟩ => ⟨S10000x64, .f32⟩
  | .hbm, ⟨31, _⟩ => ⟨S1x64, .f32⟩
  | .hbm, ⟨32, _⟩ => ⟨S10000x64, .f32⟩
  | .hbm, ⟨33, _⟩ => ⟨S10000x64, .f32⟩
  | .hbm, ⟨34, _⟩ => ⟨S128x64, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S64x64, .f32⟩
  | .hbm, ⟨43, _⟩ => ⟨S10000x64, .f32⟩
  | .hbm, ⟨44, _⟩ => ⟨S1x64, .f32⟩
  | .hbm, ⟨45, _⟩ => ⟨S10000x64, .f32⟩
  | .hbm, ⟨46, _⟩ => ⟨S10000x64, .f32⟩
  | .hbm, ⟨47, _⟩ => ⟨S_, .f32⟩
  | .hbm, ⟨48, _⟩ => ⟨S10000x64, .f32⟩
  | .hbm, ⟨49, _⟩ => ⟨S10000x64, .f32⟩
  | .hbm, ⟨50, _⟩ => ⟨S10000x64, .f32⟩
  | .hbm, ⟨51, _⟩ => ⟨S10000x64, .f32⟩
  | .hbm, ⟨52, _⟩ => ⟨S10000x64, .i1⟩
  | .hbm, ⟨53, _⟩ => ⟨S10000x64, .f32⟩
  | .hbm, ⟨54, _⟩ => ⟨S10000x64, .f32⟩
  | .hbm, ⟨55, _⟩ => ⟨S10000x64, .f32⟩
  | .hbm, ⟨56, _⟩ => ⟨S10000x64, .f32⟩
  | .hbm, ⟨57, _⟩ => ⟨S10000x64, .f32⟩
  | .hbm, ⟨58, _⟩ => ⟨S10000x64, .f32⟩
  | .hbm, ⟨59, _⟩ => ⟨S10000x64, .f32⟩
  | .hbm, ⟨60, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call1_cst : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call2_cst : Ref sig .tc := ⟨.hbm, 39, rfl⟩
abbrev main_call2_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call3_cst : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_v29 : Ref sig .tc := ⟨.hbm, 60, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S64x64_S64x64_1_0 : S64x64.Transposes [1, 0] S64x64
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.Bits.PointRun.lean ====
/-
  The encoder's kernel body at one grid point, as a separation-logic triple over ANY whole staging memrefs.
  The body branches on the row-block index alone: at the first block it forms the projected features
  x·W1ᵀ + b1 and keeps them in its scratch; at every block it multiplies the block of adjacency rows by the kept
  features, clamps at zero, and applies the two small heads, storing one block of each result. What each store
  leaves is recorded as the list of pieces written; the run finds those lists.
-/
import proofs.«174787_g59639915872695_cont_sun_m_860_22_alg».proof.Proof.Gen.Kernel.Launch
import proofs.«174787_g59639915872695_cont_sun_m_860_22_alg».proof.Proof.Gen.Kernel.Skeleton
import proofs.«174787_g59639915872695_cont_sun_m_860_22_alg».proof.Proof.Gen.Kernel.Points
import proofs.«174787_g59639915872695_cont_sun_m_860_22_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.PointRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev isFirst (i : grid0.Coords) : Prop :=
  (Scalar.cmpi .ne (Scalar.extui (Scalar.cmpi .eq (BitVec.ofNat 32 (i 0).val) 0#32)) 0#32) = 1#1

/-- It holds at point 0 only — decided over the twenty points. -/
theorem isFirst_iff : ∀ t : Fin cfg0.N, isFirst (grid0.coords t) ↔ t.val = 0 :=
  (by decide +kernel : ∀ t : Fin grid0.N, isFirst (grid0.coords t) ↔ t.val = 0)

set_option maxHeartbeats 4000000 in
/-- The first row block: the scratch arrives at anything and leaves with the projected features written; both
    result buffers leave with their block written. -/
noncomputable def runFirst (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : isFirst i)
    (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) :
    Σ' (L13 : List (View.Piece (Elt F) S512x64 .f32)) (L14 : List (View.Piece (Elt F) S512x64 .f32)), { L15 : List (View.Piece (Elt F) S10000x128 .bf16) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15)) -∗ K ⟨⟩))
          ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K } := by
  refine ⟨?_, ?_, ?_, fun E K => ?run⟩
  case run =>
    simp only [cc0__vgae_body_eq_skeleton]; unfold cc0__vgae_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

set_option maxHeartbeats 4000000 in
/-- A later row block: the scratch arrives holding `xs` and is only read; both result buffers leave with their
    block written. -/
noncomputable def runLater (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : ¬isFirst i)
    (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs : Vec F S10000x128 .bf16) :
    Σ' (L13 : List (View.Piece (Elt F) S512x64 .f32)), { L14 : List (View.Piece (Elt F) S512x64 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ owns (c : Thread nD τ) a15 fullShare xs
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ owns (c : Thread nD τ) a15 fullShare xs) -∗ K ⟨⟩))
          ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K } := by
  refine ⟨?_, ?_, fun E K => ?run⟩
  case run =>
    simp only [cc0__vgae_body_eq_skeleton]; unfold cc0__vgae_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h15.eq_unread hf15
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; isplitr; · ipureintro; exact h15.read_unread _
    iexact H15

end Cert.Kernel.PointRun

end
-- ==== Proof.Bits.PointBody.lean ====
/-
  What the body's stores leave, as contents: the run's pieces read back. At the first row block the scratch ends
  holding the projected features; at every block the two result buffers end holding the mean block and the spread
  block computed from the adjacency rows staged and the features kept. The triples below state exactly that, over
  any whole staging memrefs and any contents.
-/
import proofs.«174787_g59639915872695_cont_sun_m_860_22_alg».proof.Proof.Bits.PointRun
import Idealize.ShloMosaic.Lib.Pipeline.Value

set_option maxRecDepth 16384

noncomputable section

namespace Cert.Kernel.PointRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: both zero. -/
theorem zeros : (![0, 0] : Fin 2 → Nat) = fun _ => 0 := funext fun a => by fin_cases a <;> rfl

section First
variable (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : isFirst i) (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32)

/-- Each buffer the first block stores into is stored whole: its pieces cover it. -/
theorem cover13_first (y : S512x64.Idx) : ∃ pc ∈ (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).1, y ∈ pc.1.set :=
  View.cover_of_tiledL (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).1 S512x64.size (by sl_kernel_rfl) y
theorem cover14_first (y : S512x64.Idx) : ∃ pc ∈ (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.1, y ∈ pc.1.set :=
  View.cover_of_tiledL (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.1 S512x64.size (by sl_kernel_rfl) y
theorem cover15_first (y : S10000x128.Idx) : ∃ pc ∈ (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.1, y ∈ pc.1.set :=
  View.cover_of_tiledL (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.1 S10000x128.size (by sl_kernel_rfl) y

/-- The scratch ends holding the projected features of the staged x, W1 and b1. -/
theorem kept_first (f : a15.view.ty.Contents (Elt F)) :
    a15.view.read (Elt F) (a15.view.writes (Elt F) f (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.1) = k0_pay2 x1 x3 x4 := by
  rw [View.read_writes_eq_canon _ _ _ (cover15_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12)]
  unfold runFirst; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros]

/-- The mean buffer ends holding the mean block of the staged adjacency rows over those features. -/
theorem mean_first (f : a13.view.ty.Contents (Elt F)) :
    a13.view.read (Elt F) (a13.view.writes (Elt F) f (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).1) = k0_pay4 x2 (k0_pay2 x1 x3 x4) x5 x6 x7 x8 := by
  rw [View.read_writes_eq_canon _ _ _ (cover13_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12)]
  unfold runFirst; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros, View.readCov_unit_zero (S := S10000x128) _ zeros]

/-- The spread buffer likewise. -/
theorem spread_first (f : a14.view.ty.Contents (Elt F)) :
    a14.view.read (Elt F) (a14.view.writes (Elt F) f (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.1) = k0_pay1 (k0_pay5 x2 (k0_pay2 x1 x3 x4) x9 x10) (Scalar.ofBits .f32 0x00000000#32) x11 x12 := by
  rw [View.read_writes_eq_canon _ _ _ (cover14_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12)]
  unfold runFirst; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros, View.readCov_unit_zero (S := S10000x128) _ zeros]

include hc in
/-- THE FIRST ROW BLOCK: from the twelve inputs' buffers at any contents, the two result buffers and the scratch at
    anything, the body runs and leaves the inputs as they were, the scratch at the projected features and the result
    buffers at their blocks. -/
theorem first_point (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (k0_pay4 x2 (k0_pay2 x1 x3 x4) x5 x6 x7 x8) ∗ owns (c : Thread nD τ) a14 fullShare (k0_pay1 (k0_pay5 x2 (k0_pay2 x1 x3 x4) x9 x10) (Scalar.ofBits .f32 0x00000000#32) x11 x12) ∗ owns (c : Thread nD τ) a15 fullShare (k0_pay2 x1 x3 x4)) -∗ K ⟨⟩))
      ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K := by
  iintro ⟨H1, H2, H3, H4, H5, H6, H7, H8, H9, H10, H11, H12, H13, H14, H15, Hk⟩
  iapply ((runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, ⟨%e13, H13⟩, ⟨%e14, H14⟩, ⟨%e15, H15⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact mean_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 e13
  isplitl [H14]
  · unfold owns; iexists _; isplitr
    swap; · iexact H14
    ipureintro; exact spread_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 e14
  · unfold owns; iexists _; isplitr
    swap; · iexact H15
    ipureintro; exact kept_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 e15

end First

section Later
variable (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : ¬isFirst i) (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs : Vec F S10000x128 .bf16)

theorem cover13_later (y : S512x64.Idx) : ∃ pc ∈ (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).1, y ∈ pc.1.set :=
  View.cover_of_tiledL (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).1 S512x64.size (by sl_kernel_rfl) y
theorem cover14_later (y : S512x64.Idx) : ∃ pc ∈ (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.1, y ∈ pc.1.set :=
  View.cover_of_tiledL (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.1 S512x64.size (by sl_kernel_rfl) y

/-- The mean buffer ends holding the mean block of the staged adjacency rows over the features the scratch holds. -/
theorem mean_later (f : a13.view.ty.Contents (Elt F)) :
    a13.view.read (Elt F) (a13.view.writes (Elt F) f (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).1) = k0_pay4 x2 xs x5 x6 x7 x8 := by
  rw [View.read_writes_eq_canon _ _ _ (cover13_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs)]
  unfold runLater; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, h15.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros]

theorem spread_later (f : a14.view.ty.Contents (Elt F)) :
    a14.view.read (Elt F) (a14.view.writes (Elt F) f (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.1) = k0_pay1 (k0_pay5 x2 xs x9 x10) (Scalar.ofBits .f32 0x00000000#32) x11 x12 := by
  rw [View.read_writes_eq_canon _ _ _ (cover14_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs)]
  unfold runLater; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, h15.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros]

include hc in
/-- A LATER ROW BLOCK: the scratch arrives holding `xs` and leaves holding it; the result buffers leave at their
    blocks over `xs`. -/
theorem later_point (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ owns (c : Thread nD τ) a15 fullShare xs
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (k0_pay4 x2 xs x5 x6 x7 x8) ∗ owns (c : Thread nD τ) a14 fullShare (k0_pay1 (k0_pay5 x2 xs x9 x10) (Scalar.ofBits .f32 0x00000000#32) x11 x12) ∗ owns (c : Thread nD τ) a15 fullShare xs) -∗ K ⟨⟩))
      ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K := by
  iintro ⟨H1, H2, H3, H4, H5, H6, H7, H8, H9, H10, H11, H12, H13, H14, H15, Hk⟩
  iapply ((runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, ⟨%e13, H13⟩, ⟨%e14, H14⟩, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact mean_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs e13
  isplitl [H14]
  · unfold owns; iexists _; isplitr
    swap; · iexact H14
    ipureintro; exact spread_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs e14
  · iexact H15

end Later

end Cert.Kernel.PointRun

end
-- ==== Proof.Bits.Frame.lean ====
/-
  The word-level kernel's one region, point by point: the frame.

  Proof data: every array is what the region finds; after the body at row block t the eleven whole-array windows'
  buffers hold their arrays and the adjacency window's buffer the staged rows (the rows inside the array; the rows of
  the last block past the array's end are stated as zero and never read back). The two result windows are forgotten:
  each is handed to the body at anything and taken back at anything, because the last row block's product is formed
  from a whole operand whose rows past the array's end hold words nothing names. The scratch is at anything before
  and after every row block: at the first block the body fills it, at every later one it is only read, so whatever
  it holds on arrival it holds on leaving.
  Hence the frame: every weakly fair execution of @main terminates, nothing faults, and the twelve argument arrays
  end as they began — a staged argument because its window is an input, the other five because nothing of the region
  touches them.
-/
import proofs.«174787_g59639915872695_cont_sun_m_860_22_alg».proof.Proof.Bits.PointBody
import proofs.«174787_g59639915872695_cont_sun_m_860_22_alg».proof.Defs
import Idealize.ShloMosaic.Lib.Pipeline.Frame

set_option maxRecDepth 16384

noncomputable section

namespace Cert.Kernel.Region

open Cert.Kernel Cert.Kernel.Gen Cert.Kernel.PointRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows the frame forgets: the two results. -/
def fgt : Fin cfg0.W → Bool
  | ⟨12, _⟩ => true
  | ⟨13, _⟩ => true
  | _ => false

/-- The scratch, as a whole memref. -/
abbrev scM : Memref sig .tc .vmem S10000x128 .bf16 := Memref.whole cc0_scratch0

/-- The zero the rows past the array's end are stated at. -/
abbrev zeroW : F .f32 := Scalar.ofBits .f32 0x00000000#32

/-- The adjacency rows staged at row block t: the rows inside the array, zero past its end. -/
def adjRows (c : Dev nD) (t : Fin cfg0.N) : Vec F S512x10000 .f32 :=
  win0_1.fill (grid0.coords t) (fun _ => zeroW) (iblk m c 1 t)

/-- The launch's invariant with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => adjRows m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
    | ⟨13, _⟩ => Dat.unnamed 13 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_1 (c : Dev nD) (t : Fin cfg0.N) : (dats m 0 c).after 1 t = adjRows m c t := by dsimp only [dats]

/-- What the body finds: each whole-array window's buffer at its array, fetched at this block or not; -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
/-- the adjacency window's buffer just fetched: the rows inside the array, `d` past its end. -/
theorem before_1 (c : Dev nD) (t : Fin cfg0.N) (d) :
    (dats m 0 c).before 1 t d = win0_1.fill (grid0.coords t) d (iblk m c 1 t) := by
  rw [Dat.before_fetched _ 1 t (fetch0_1 t) d]; unfold Dat.fetched Dat.blockOf iblk; rw [A_eq]; try rfl

/-! ## The body obligation -/

/-- What the body is called with at row block t: the two result buffers at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ X, owns (c : Thread nD τ) (st0_13 t) fullShare X))

/-- and what it returns: the adjacency window stated on the rows its transfer moved, the two result buffers at
    anything again. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (∃ X, owns (c : Thread nD τ) (st0_13 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_2, before_3, before_4, before_5, before_6, before_7, before_8, before_9, before_10, before_11, before_1, after_0, after_2, after_3, after_4, after_5, after_6, after_7, after_8, after_9, after_10, after_11, after_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  have hcut1 : win0_1.cut (grid0.coords t) (adjRows m c t) = iblk m c 1 t := win0_1.cut_fill _ _ _
  by_cases hz : t.val = 0
  · -- the first row block: the scratch at anything, filled here
    have hf : isFirst (grid0.coords t) := (isFirst_iff t).mpr hz
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (first_point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) hf
      (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]; · iexists _; iexact HS
      iexact Hg
    isplitl [Ho]; · iexact Ho
    isplitl [H0]; · iexact H0
    isplitl [H1]
    · iexists d1; rw [hcut1]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    · iexists _; iexact H13
  · -- a later row block: the scratch is only read, and leaves holding what it held
    have hf : ¬isFirst (grid0.coords t) := fun h => hz ((isFirst_iff t).mp h)
    iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (later_point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) hf
      (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]; · iexists _; iexact HS
      iexact Hg
    isplitl [Ho]; · iexact Ho
    isplitl [H0]; · iexact H0
    isplitl [H1]
    · iexists d1; rw [hcut1]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    · iexists _; iexact H13

/-- The library's body obligation, the two result windows forgotten, at every row block. -/
theorem body_obligation (c : Dev nD) :
    BodyObligationLoose (dats m 0 c) (defs₀ (F := F)) Variants.none () Set.univ fgt := fun t => by
  rw [bigSep_W0, bigSep_W0]
  exact sound_body m c t

/-! ## The run -/

set_option backward.isDefEq.respectTransparency.types false in
/-- Every weakly fair execution of @main terminates, nothing faulting, with every input array of the region as the
    region found it, the two result arrays at something, and every other unscoped buffer as the region found it. -/
theorem run_main :
    θ_run defs (onTc (τ := τ) (main (F := F))) (s₀ m ρ) (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- THE FRAME: @main runs and the twelve argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.arr_in c 0 rfl).trans ((A_eq m c 0).trans (V_main_arg0 m c)),
      (h.arr_in c 1 rfl).trans ((A_eq m c 1).trans (V_main_arg1 m c)),
      (h.arr_in c 2 rfl).trans ((A_eq m c 2).trans (V_main_arg2 m c)),
      ((h c).2 main_arg3 (Pipeline.mem_restRefs_of main_arg3 (by decide) (by decide))).trans (V_main_arg3 m c),
      (h.arr_in c 4 rfl).trans ((A_eq m c 4).trans (V_main_arg4 m c)),
      ((h c).2 main_arg5 (Pipeline.mem_restRefs_of main_arg5 (by decide) (by decide))).trans (V_main_arg5 m c),
      (h.arr_in c 6 rfl).trans ((A_eq m c 6).trans (V_main_arg6 m c)),
      ((h c).2 main_arg7 (Pipeline.mem_restRefs_of main_arg7 (by decide) (by decide))).trans (V_main_arg7 m c),
      (h.arr_in c 8 rfl).trans ((A_eq m c 8).trans (V_main_arg8 m c)),
      ((h c).2 main_arg9 (Pipeline.mem_restRefs_of main_arg9 (by decide) (by decide))).trans (V_main_arg9 m c),
      (h.arr_in c 10 rfl).trans ((A_eq m c 10).trans (V_main_arg10 m c)),
      ((h c).2 main_arg11 (Pipeline.mem_restRefs_of main_arg11 (by decide) (by decide))).trans (V_main_arg11 m c)⟩) (run_main m ρ)

/-- The frame claim of the kernel as printed. -/
theorem frame_Kernel [Cert.Kernel.Facts] [Cert.Pre_finite_inputs.Facts] : Cert.frame_Kernel :=
  fun m ρ _ => Cert.Kernel.Region.frame (F := Bits) m ρ

end Cert.Kernel.Region

end
-- ==== Proof.Ideal.PointRun.lean ====
/-
  The encoder's kernel body at one grid point, as a separation-logic triple over ANY whole staging memrefs.
  The body branches on the row-block index alone: at the first block it forms the projected features
  x·W1ᵀ + b1 and keeps them in its scratch; at every block it multiplies the block of adjacency rows by the kept
  features, clamps at zero, and applies the two small heads, storing one block of each result. What each store
  leaves is recorded as the list of pieces written; the run finds those lists.
-/
import proofs.«174787_g59639915872695_cont_sun_m_860_22_alg».proof.Proof.Gen.KernelIdeal.Launch
import proofs.«174787_g59639915872695_cont_sun_m_860_22_alg».proof.Proof.Gen.KernelIdeal.Skeleton
import proofs.«174787_g59639915872695_cont_sun_m_860_22_alg».proof.Proof.Gen.KernelIdeal.Points
import proofs.«174787_g59639915872695_cont_sun_m_860_22_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.PointRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev isFirst (i : grid0.Coords) : Prop :=
  (Scalar.cmpi .ne (Scalar.extui (Scalar.cmpi .eq (BitVec.ofNat 32 (i 0).val) 0#32)) 0#32) = 1#1

/-- It holds at point 0 only — decided over the twenty points. -/
theorem isFirst_iff : ∀ t : Fin cfg0.N, isFirst (grid0.coords t) ↔ t.val = 0 :=
  (by decide +kernel : ∀ t : Fin grid0.N, isFirst (grid0.coords t) ↔ t.val = 0)

set_option maxHeartbeats 4000000 in
/-- The first row block: the scratch arrives at anything and leaves with the projected features written; both
    result buffers leave with their block written. -/
noncomputable def runFirst (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : isFirst i)
    (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) :
    Σ' (L13 : List (View.Piece (Elt F) S512x64 .f32)) (L14 : List (View.Piece (Elt F) S512x64 .f32)), { L15 : List (View.Piece (Elt F) S10000x128 .bf16) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15)) -∗ K ⟨⟩))
          ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K } := by
  refine ⟨?_, ?_, ?_, fun E K => ?run⟩
  case run =>
    simp only [cc0__vgae_body_eq_skeleton]; unfold cc0__vgae_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; iexact H15

set_option maxHeartbeats 4000000 in
/-- A later row block: the scratch arrives holding `xs` and is only read; both result buffers leave with their
    block written. -/
noncomputable def runLater (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : ¬isFirst i)
    (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs : Vec F S10000x128 .bf16) :
    Σ' (L13 : List (View.Piece (Elt F) S512x64 .f32)), { L14 : List (View.Piece (Elt F) S512x64 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ owns (c : Thread nD τ) a15 fullShare xs
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ owns (c : Thread nD τ) a15 fullShare xs) -∗ K ⟨⟩))
          ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K } := by
  refine ⟨?_, ?_, fun E K => ?run⟩
  case run =>
    simp only [cc0__vgae_body_eq_skeleton]; unfold cc0__vgae_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h15.eq_unread hf15
    sl_exec (disch := exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]; · iexists _; iexact H13
    isplitl [H14]; · iexists _; iexact H14
    iexists _; isplitr; · ipureintro; exact h15.read_unread _
    iexact H15

end Cert.KernelIdeal.PointRun

end
-- ==== Proof.Ideal.PointBody.lean ====
/-
  What the body's stores leave, as contents: the run's pieces read back. At the first row block the scratch ends
  holding the projected features; at every block the two result buffers end holding the mean block and the spread
  block computed from the adjacency rows staged and the features kept. The triples below state exactly that, over
  any whole staging memrefs and any contents.
-/
import proofs.«174787_g59639915872695_cont_sun_m_860_22_alg».proof.Proof.Ideal.PointRun
import Idealize.ShloMosaic.Lib.Pipeline.Value

set_option maxRecDepth 16384

noncomputable section

namespace Cert.KernelIdeal.PointRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: both zero. -/
theorem zeros : (![0, 0] : Fin 2 → Nat) = fun _ => 0 := funext fun a => by fin_cases a <;> rfl

section First
variable (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : isFirst i) (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32)

/-- Each buffer the first block stores into is stored whole: its pieces cover it. -/
theorem cover13_first (y : S512x64.Idx) : ∃ pc ∈ (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).1, y ∈ pc.1.set :=
  View.cover_of_tiledL (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).1 S512x64.size (by sl_kernel_rfl) y
theorem cover14_first (y : S512x64.Idx) : ∃ pc ∈ (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.1, y ∈ pc.1.set :=
  View.cover_of_tiledL (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.1 S512x64.size (by sl_kernel_rfl) y
theorem cover15_first (y : S10000x128.Idx) : ∃ pc ∈ (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.1, y ∈ pc.1.set :=
  View.cover_of_tiledL (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.1 S10000x128.size (by sl_kernel_rfl) y

/-- The scratch ends holding the projected features of the staged x, W1 and b1. -/
theorem kept_first (f : a15.view.ty.Contents (Elt F)) :
    a15.view.read (Elt F) (a15.view.writes (Elt F) f (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.1) = k0_pay2 x1 x3 x4 := by
  rw [View.read_writes_eq_canon _ _ _ (cover15_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12)]
  unfold runFirst; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros]

/-- The mean buffer ends holding the mean block of the staged adjacency rows over those features. -/
theorem mean_first (f : a13.view.ty.Contents (Elt F)) :
    a13.view.read (Elt F) (a13.view.writes (Elt F) f (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).1) = k0_pay4 x2 (k0_pay2 x1 x3 x4) x5 x6 x7 x8 := by
  rw [View.read_writes_eq_canon _ _ _ (cover13_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12)]
  unfold runFirst; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros, View.readCov_unit_zero (S := S10000x128) _ zeros]

/-- The spread buffer likewise. -/
theorem spread_first (f : a14.view.ty.Contents (Elt F)) :
    a14.view.read (Elt F) (a14.view.writes (Elt F) f (runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.1) = k0_pay1 (k0_pay5 x2 (k0_pay2 x1 x3 x4) x9 x10) (Scalar.ofBits .f32 0x00000000#32) x11 x12 := by
  rw [View.read_writes_eq_canon _ _ _ (cover14_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12)]
  unfold runFirst; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros, View.readCov_unit_zero (S := S10000x128) _ zeros]

include hc in
/-- THE FIRST ROW BLOCK: from the twelve inputs' buffers at any contents, the two result buffers and the scratch at
    anything, the body runs and leaves the inputs as they were, the scratch at the projected features and the result
    buffers at their blocks. -/
theorem first_point (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (k0_pay4 x2 (k0_pay2 x1 x3 x4) x5 x6 x7 x8) ∗ owns (c : Thread nD τ) a14 fullShare (k0_pay1 (k0_pay5 x2 (k0_pay2 x1 x3 x4) x9 x10) (Scalar.ofBits .f32 0x00000000#32) x11 x12) ∗ owns (c : Thread nD τ) a15 fullShare (k0_pay2 x1 x3 x4)) -∗ K ⟨⟩))
      ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K := by
  iintro ⟨H1, H2, H3, H4, H5, H6, H7, H8, H9, H10, H11, H12, H13, H14, H15, Hk⟩
  iapply ((runFirst c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, ⟨%e13, H13⟩, ⟨%e14, H14⟩, ⟨%e15, H15⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact mean_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 e13
  isplitl [H14]
  · unfold owns; iexists _; isplitr
    swap; · iexact H14
    ipureintro; exact spread_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 e14
  · unfold owns; iexists _; isplitr
    swap; · iexact H15
    ipureintro; exact kept_first c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 e15

end First

section Later
variable (c : Dev nD) (i : grid0.Coords) (a1 : Memref sig .tc .vmem S10000x128 .f32) (h1 : a1.IsWhole) (a2 : Memref sig .tc .vmem S512x10000 .f32) (h2 : a2.IsWhole) (a3 : Memref sig .tc .vmem S128x128 .f32) (h3 : a3.IsWhole) (a4 : Memref sig .tc .vmem S1x128 .f32) (h4 : a4.IsWhole) (a5 : Memref sig .tc .vmem S64x128 .f32) (h5 : a5.IsWhole) (a6 : Memref sig .tc .vmem S1x64 .f32) (h6 : a6.IsWhole) (a7 : Memref sig .tc .vmem S64x64 .f32) (h7 : a7.IsWhole) (a8 : Memref sig .tc .vmem S1x64 .f32) (h8 : a8.IsWhole) (a9 : Memref sig .tc .vmem S64x128 .f32) (h9 : a9.IsWhole) (a10 : Memref sig .tc .vmem S1x64 .f32) (h10 : a10.IsWhole) (a11 : Memref sig .tc .vmem S64x64 .f32) (h11 : a11.IsWhole) (a12 : Memref sig .tc .vmem S1x64 .f32) (h12 : a12.IsWhole) (a13 : Memref sig .tc .vmem S512x64 .f32) (h13 : a13.IsWhole) (a14 : Memref sig .tc .vmem S512x64 .f32) (h14 : a14.IsWhole) (a15 : Memref sig .tc .vmem S10000x128 .bf16) (h15 : a15.IsWhole) (hc : ¬isFirst i) (x1 : Vec F S10000x128 .f32) (x2 : Vec F S512x10000 .f32) (x3 : Vec F S128x128 .f32) (x4 : Vec F S1x128 .f32) (x5 : Vec F S64x128 .f32) (x6 : Vec F S1x64 .f32) (x7 : Vec F S64x64 .f32) (x8 : Vec F S1x64 .f32) (x9 : Vec F S64x128 .f32) (x10 : Vec F S1x64 .f32) (x11 : Vec F S64x64 .f32) (x12 : Vec F S1x64 .f32) (xs : Vec F S10000x128 .bf16)

theorem cover13_later (y : S512x64.Idx) : ∃ pc ∈ (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).1, y ∈ pc.1.set :=
  View.cover_of_tiledL (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).1 S512x64.size (by sl_kernel_rfl) y
theorem cover14_later (y : S512x64.Idx) : ∃ pc ∈ (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.1, y ∈ pc.1.set :=
  View.cover_of_tiledL (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.1 S512x64.size (by sl_kernel_rfl) y

/-- The mean buffer ends holding the mean block of the staged adjacency rows over the features the scratch holds. -/
theorem mean_later (f : a13.view.ty.Contents (Elt F)) :
    a13.view.read (Elt F) (a13.view.writes (Elt F) f (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).1) = k0_pay4 x2 xs x5 x6 x7 x8 := by
  rw [View.read_writes_eq_canon _ _ _ (cover13_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs)]
  unfold runLater; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, h15.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros]

theorem spread_later (f : a14.view.ty.Contents (Elt F)) :
    a14.view.read (Elt F) (a14.view.writes (Elt F) f (runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.1) = k0_pay1 (k0_pay5 x2 xs x9 x10) (Scalar.ofBits .f32 0x00000000#32) x11 x12 := by
  rw [View.read_writes_eq_canon _ _ _ (cover14_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs)]
  unfold runLater; dsimp only; sl_unfold_words
  rw [View.canon_unit_zero zeros]
  simp only [View.readAt_eq_ld, h1.read_unread, h2.read_unread, h3.read_unread, h4.read_unread, h5.read_unread, h6.read_unread, h7.read_unread, h8.read_unread, h9.read_unread, h10.read_unread, h11.read_unread, h12.read_unread, h15.read_unread, View.ld_unit_zero (S := S10000x128) zeros, View.ld_unit_zero (S := S512x10000) zeros, View.ld_unit_zero (S := S128x128) zeros, View.ld_unit_zero (S := S1x128) zeros, View.ld_unit_zero (S := S64x128) zeros, View.ld_unit_zero (S := S1x64) zeros, View.ld_unit_zero (S := S64x64) zeros, View.ld_unit_zero (S := S512x64) zeros]

include hc in
/-- A LATER ROW BLOCK: the scratch arrives holding `xs` and leaves holding it; the result buffers leave at their
    blocks over `xs`. -/
theorem later_point (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ owns (c : Thread nD τ) a15 fullShare xs
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (k0_pay4 x2 xs x5 x6 x7 x8) ∗ owns (c : Thread nD τ) a14 fullShare (k0_pay1 (k0_pay5 x2 xs x9 x10) (Scalar.ofBits .f32 0x00000000#32) x11 x12) ∗ owns (c : Thread nD τ) a15 fullShare xs) -∗ K ⟨⟩))
      ⊢ wp frame (wpE (defs₀ (F := F)) Variants.none c none) E (cc0__vgae_body i a1 h1 a2 h2 a3 h3 a4 h4 a5 h5 a6 h6 a7 h7 a8 h8 a9 h9 a10 h10 a11 h11 a12 h12 a13 h13 a14 h14 a15 h15) K := by
  iintro ⟨H1, H2, H3, H4, H5, H6, H7, H8, H9, H10, H11, H12, H13, H14, H15, Hk⟩
  iapply ((runLater c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs).2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, H8, H9, H10, H11, H12, ⟨%e13, H13⟩, ⟨%e14, H14⟩, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact mean_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs e13
  isplitl [H14]
  · unfold owns; iexists _; isplitr
    swap; · iexact H14
    ipureintro; exact spread_later c i a1 h1 a2 h2 a3 h3 a4 h4 a5 h5 a6 h6 a7 h7 a8 h8 a9 h9 a10 h10 a11 h11 a12 h12 a13 h13 a14 h14 a15 h15 hc x1 x2 x3 x4 x5 x6 x7 x8 x9 x10 x11 x12 xs e14
  · iexact H15

end Later

end Cert.KernelIdeal.PointRun

end
-- ==== Proof.Ideal.Region.lean ====
/-
  The idealized kernel's one region, point by point, on the extended reals.

  Proof data: every array is what the region finds; after the body at row block t the eleven whole-array windows'
  buffers hold their arrays, the adjacency window's buffer the staged rows (the rows inside the array; the rows of the
  last block past the array's end are stated as zero and never read back), and the two result windows' buffers the
  mean block and the spread block of those rows over the projected features. The scratch is anything before the
  first block and the projected features x·W1ᵀ + b1 from then on: that is the region's invariant.
  The two result blocks are stated over the zero-filled rows; what the body computes from the rows actually staged
  agrees with them on the rows written back, because a row of a block product depends on that row of the left operand
  only — assumed here as the two locality facts below, proved where the arithmetic is read at an entry.
-/
import proofs.«174787_g59639915872695_cont_sun_m_860_22_alg».proof.Proof.Ideal.PointBody
import Idealize.ShloMosaic.Lib.Pipeline.Frame
import Idealize.ShloMosaic.PureOps.Ideal

set_option maxRecDepth 16384

noncomputable section

namespace Cert.KernelIdeal.Region

open Cert.KernelIdeal Cert.KernelIdeal.Gen Cert.KernelIdeal.PointRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The first row block. -/
abbrev t₀ : Fin cfg0.N := ⟨0, by decide⟩

/-- The scratch, as a whole memref. -/
abbrev scM : Memref sig .tc .vmem S10000x128 .bf16 := Memref.whole cc0_scratch0

/-- The zero the soft-plus is written with. -/
abbrev zeroW : Ideal .f32 := Scalar.ofBits .f32 0x00000000#32

/-- Each whole-array window's block, at its literal shape. -/
abbrev whole0 (c : Dev nD) (t : Fin cfg0.N) : Vec Ideal S10000x128 .f32 := iblk m c 0 t
abbrev whole2 (c : Dev nD) (t : Fin cfg0.N) : Vec Ideal S128x128 .f32 := iblk m c 2 t
abbrev whole3 (c : Dev nD) (t : Fin cfg0.N) : Vec Ideal S1x128 .f32 := iblk m c 3 t
abbrev whole4 (c : Dev nD) (t : Fin cfg0.N) : Vec Ideal S64x128 .f32 := iblk m c 4 t
abbrev whole5 (c : Dev nD) (t : Fin cfg0.N) : Vec Ideal S1x64 .f32 := iblk m c 5 t
abbrev whole6 (c : Dev nD) (t : Fin cfg0.N) : Vec Ideal S64x64 .f32 := iblk m c 6 t
abbrev whole7 (c : Dev nD) (t : Fin cfg0.N) : Vec Ideal S1x64 .f32 := iblk m c 7 t
abbrev whole8 (c : Dev nD) (t : Fin cfg0.N) : Vec Ideal S64x128 .f32 := iblk m c 8 t
abbrev whole9 (c : Dev nD) (t : Fin cfg0.N) : Vec Ideal S1x64 .f32 := iblk m c 9 t
abbrev whole10 (c : Dev nD) (t : Fin cfg0.N) : Vec Ideal S64x64 .f32 := iblk m c 10 t
abbrev whole11 (c : Dev nD) (t : Fin cfg0.N) : Vec Ideal S1x64 .f32 := iblk m c 11 t

/-- The adjacency rows staged at row block t: the rows inside the array, zero past its end. -/
def adjRows (c : Dev nD) (t : Fin cfg0.N) : Vec Ideal S512x10000 .f32 :=
  win0_1.fill (grid0.coords t) (fun _ => zeroW) (iblk m c 1 t)

/-- The projected features, as the first row block computes them from the staged x, W1 and b1. -/
def kept (c : Dev nD) : Vec Ideal S10000x128 .bf16 := k0_pay2 (whole0 m c t₀) (whole2 m c t₀) (whole3 m c t₀)

/-- The mean block and the spread block at row block t. -/
def meanBlk (c : Dev nD) (t : Fin cfg0.N) : Vec Ideal S512x64 .f32 :=
  k0_pay4 (adjRows m c t) (kept m c) (whole4 m c t) (whole5 m c t) (whole6 m c t) (whole7 m c t)
def spreadBlk (c : Dev nD) (t : Fin cfg0.N) : Vec Ideal S512x64 .f32 :=
  k0_pay1 (k0_pay5 (adjRows m c t) (kept m c) (whole8 m c t) (whole9 m c t)) zeroW (whole10 m c t) (whole11 m c t)

/-- LOCALITY of the mean block: on the rows written back, the block computed from the rows staged — whatever fills the
    rows past the array's end — is the block computed from the zero-filled rows. -/
def MeanLocal : Prop := ∀ (c : Dev nD) (t : Fin cfg0.N) (d : S512x10000.Idx → Elt Ideal .f32),
  win0_12.cut (grid0.coords t) (k0_pay4 (win0_1.fill (grid0.coords t) d (iblk m c 1 t)) (kept m c) (whole4 m c t) (whole5 m c t) (whole6 m c t) (whole7 m c t))
    = win0_12.cut (grid0.coords t) (meanBlk m c t)
/-- LOCALITY of the spread block, likewise. -/
def SpreadLocal : Prop := ∀ (c : Dev nD) (t : Fin cfg0.N) (d : S512x10000.Idx → Elt Ideal .f32),
  win0_13.cut (grid0.coords t) (k0_pay1 (k0_pay5 (win0_1.fill (grid0.coords t) d (iblk m c 1 t)) (kept m c) (whole8 m c t) (whole9 m c t)) zeroW (whole10 m c t) (whole11 m c t))
    = win0_13.cut (grid0.coords t) (spreadBlk m c t)

/-! ## The invariant: the scratch before each row block -/

/-- Before the first block the scratch holds anything; before every later one, the projected features. -/
def PhiS (c : Dev nD) : (n : ℕ) → n ≤ cfg0.N → sProp 𝕄
  | 0, _ => Pipeline.ΦA spec0 c
  | _ + 1, _ => iprop(owns (c : Thread nD τ) scM fullShare (kept m c) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (kept m c) ∗ (∃ r, prngReg c r)) := by
  cases n with
  | zero => exact absurd rfl hz
  | succ n => rfl

/-- The launch's invariant with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => adjRows m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => meanBlk m c t
    | ⟨13, _⟩ => spreadBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = adjRows m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = meanBlk m c t := by dsimp only [dats]
theorem after_13 (c : Dev nD) (t : Fin cfg0.N) : (dats m 0 c).after 13 t = spreadBlk m c t := by dsimp only [dats]

/-- What the body finds: each whole-array window's buffer at its array, fetched at this block or not; -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
/-- the adjacency window's buffer just fetched: the rows inside the array, `d` past its end; -/
theorem before_1 (c : Dev nD) (t : Fin cfg0.N) (d) :
    (dats m 0 c).before 1 t d = win0_1.fill (grid0.coords t) d (iblk m c 1 t) := by
  rw [Dat.before_fetched _ 1 t (fetch0_1 t) d]; unfold Dat.fetched Dat.blockOf iblk; rw [A_eq]; try rfl
/-- the two result windows' buffers at anything (each is written back at every block). -/
theorem before_12 (c : Dev nD) (t : Fin cfg0.N) (d) : (dats m 0 c).before 12 t d = d :=
  Dat.before_out_reset _ 12 rfl t (by
    by_cases h0 : t.val = 0
    · exact .inl h0
    · exact .inr ⟨h0, flush0_12 _⟩) d
theorem before_13 (c : Dev nD) (t : Fin cfg0.N) (d) : (dats m 0 c).before 13 t d = d :=
  Dat.before_out_reset _ 13 rfl t (by
    by_cases h0 : t.val = 0
    · exact .inl h0
    · exact .inr ⟨h0, flush0_13 _⟩) d

/-! ## The body obligation -/

/-- What the body is called with at row block t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns: the three cut windows stated on the rows their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ d, owns (c : Thread nD τ) (st0_12 t) fullShare (win0_12.fill (grid0.coords t) d (win0_12.cut (grid0.coords t) ((dats m 0 c).after 12 t))))
    ∗ (∃ d, owns (c : Thread nD τ) (st0_13 t) fullShare (win0_13.fill (grid0.coords t) d (win0_13.cut (grid0.coords t) ((dats m 0 c).after 13 t)))))

set_option maxHeartbeats 4000000 in
theorem sound_body (hM : MeanLocal m) (hS : SpreadLocal m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, after_0, after_1, after_2, after_3, after_4, after_5, after_6, after_7, after_8, after_9, after_10, after_11, after_12, after_13]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc m c t]
  have hcut1 : win0_1.cut (grid0.coords t) (adjRows m c t) = iblk m c 1 t := win0_1.cut_fill _ _ _
  by_cases hz : t.val = 0
  · -- the first row block: the scratch at anything; the features are formed here
    have hf : isFirst (grid0.coords t) := (isFirst_iff t).mpr hz
    have hk : (k0_pay2 (iblk m c 0 t) (iblk m c 2 t) (iblk m c 3 t) : Vec Ideal S10000x128 .bf16) = kept m c := by
      have ht : t = t₀ := Fin.ext hz
      subst ht; rfl
    rw [PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (first_point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) hf
      (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    rw [hk]
    isplitl [HS Hg]
    · isplitl [HS]; · iexact HS
      iexact Hg
    isplitl [Ho]; · iexact Ho
    isplitl [H0]; · iexact H0
    isplitl [H1]
    · iexists d1; rw [hcut1]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; rw [win0_12.fill_congr_cut (grid0.coords t) (hM c t d1)]; iexact H12
    · iexists _; rw [win0_13.fill_congr_cut (grid0.coords t) (hS c t d1)]; iexact H13
  · -- a later row block: the scratch holds the features and is only read
    have hf : ¬isFirst (grid0.coords t) := fun h => hz ((isFirst_iff t).mp h)
    rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (later_point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) hf
      (iblk m c 0 t) (win0_1.fill (grid0.coords t) d1 (iblk m c 1 t)) (iblk m c 2 t) (iblk m c 3 t) (iblk m c 4 t) (iblk m c 5 t) (iblk m c 6 t) (iblk m c 7 t) (iblk m c 8 t) (iblk m c 9 t) (iblk m c 10 t) (iblk m c 11 t) (kept m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS]; · iexact HS
    iintro ⟨H0, H1, H2, H3, H4, H5, H6, H7, H8, H9, H10, H11, H12, H13, HS⟩
    isplitl [HS Hg]
    · isplitl [HS]; · iexact HS
      iexact Hg
    isplitl [Ho]; · iexact Ho
    isplitl [H0]; · iexact H0
    isplitl [H1]
    · iexists d1; rw [hcut1]; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; rw [win0_12.fill_congr_cut (grid0.coords t) (hM c t d1)]; iexact H12
    · iexists _; rw [win0_13.fill_congr_cut (grid0.coords t) (hS c t d1)]; iexact H13

/-- The library's body obligation, at every row block. -/
theorem body_obligation (hM : MeanLocal m) (hS : SpreadLocal m) (c : Dev nD) :
    BodyObligationLoose (dats m 0 c) (defs₀ (F := Ideal)) Variants.none () Set.univ := fun t => by
  rw [bigSep_W0, bigSep_W0]
  exact sound_body m hM hS c t

/-- What the launch hands the region is the invariant before the first row block, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last one the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS, Hg⟩
  isplitl [HS]
  · iexists _; iexact HS
  iexact Hg

/-! ## The run -/

set_option backward.isDefEq.respectTransparency.types false in
/-- Every weakly fair execution of @main terminates, nothing faulting, with every array of the region at what the
    proof data compute and every other unscoped buffer as the region found it. -/
theorem run_main (hM : MeanLocal m) (hS : SpreadLocal m) :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m hM hS) (hshare := fun c => (dats m 0 c).share_full fun _ => rfl)
    (howed := fun _ _ => rfl) (V := V m) (hmain := hmain m Variants.none) (hA := A_eq m) (hin := hin m) (hout := hout m)

end Cert.KernelIdeal.Region

end
-- ==== Proof.Ideal.RowBlocks.lean ====
/-
  The geometry of the row blocks: where each staged or written-back element sits in its array.
  The adjacency matrix is staged 512 rows at a time and the two results are written back 512 rows at a time,
  over twenty grid points; 20 · 512 = 10240 exceeds the 10000 rows, so the last block overhangs its array
  and its transfer is cut to the 272 rows inside. Every other operand is staged whole at every point.
-/
import proofs.«174787_g59639915872695_cont_sun_m_860_22_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.RowBlocks

open Cert.KernelIdeal Cert.KernelIdeal.Gen Idealize.ShloMosaic Idealize.ShloMosaic.ValueIdx

variable {F : FTy → Type} [FloatOps F]
variable (m : (ℓ : Loc nD τ sig) → Buf (Elt F) ℓ)

/-! ## The printed index maps and cuts, decided over the twenty points -/

/-- The adjacency window's block index at point `t` is `(t, 0)`; the rows its transfer moves end at the block's
    end or the array's, whichever comes first; it moves every column. -/
theorem geom_1 : ∀ t : Fin cfg0.N,
    win0_1.index t (0 : Fin 2) = t.val ∧ win0_1.index t (1 : Fin 2) = 0
      ∧ 512 * t.val + win0_1.xsize (grid0.coords t) (0 : Fin 2) = min (512 * t.val + 512) 10000
      ∧ win0_1.xsize (grid0.coords t) (1 : Fin 2) = 10000 :=
  (by decide +kernel : ∀ t : Fin grid0.N, _)

/-- The same for the first result's window, -/
theorem geom_12 : ∀ t : Fin cfg0.N,
    win0_12.index t (0 : Fin 2) = t.val ∧ win0_12.index t (1 : Fin 2) = 0
      ∧ 512 * t.val + win0_12.xsize (grid0.coords t) (0 : Fin 2) = min (512 * t.val + 512) 10000
      ∧ win0_12.xsize (grid0.coords t) (1 : Fin 2) = 64 :=
  (by decide +kernel : ∀ t : Fin grid0.N, _)

/-- and for the second's. -/
theorem geom_13 : ∀ t : Fin cfg0.N,
    win0_13.index t (0 : Fin 2) = t.val ∧ win0_13.index t (1 : Fin 2) = 0
      ∧ 512 * t.val + win0_13.xsize (grid0.coords t) (0 : Fin 2) = min (512 * t.val + 512) 10000
      ∧ win0_13.xsize (grid0.coords t) (1 : Fin 2) = 64 :=
  (by decide +kernel : ∀ t : Fin grid0.N, _)

/-! ## (G1) A moved row lies inside the array -/

theorem row_lt_1 (t : Fin cfg0.N) (j : (win0_1.xblock (grid0.coords t)).Idx) : 512 * t.val + (j 0).val < 10000 := by
  have h : (j 0).val < win0_1.xsize (grid0.coords t) (0 : Fin 2) := (j 0).isLt
  have g := (geom_1 t).2.2.1
  omega

theorem row_lt_12 (t : Fin cfg0.N) (j : (win0_12.xblock (grid0.coords t)).Idx) : 512 * t.val + (j 0).val < 10000 := by
  have h : (j 0).val < win0_12.xsize (grid0.coords t) (0 : Fin 2) := (j 0).isLt
  have g := (geom_12 t).2.2.1
  omega

theorem row_lt_13 (t : Fin cfg0.N) (j : (win0_13.xblock (grid0.coords t)).Idx) : 512 * t.val + (j 0).val < 10000 := by
  have h : (j 0).val < win0_13.xsize (grid0.coords t) (0 : Fin 2) := (j 0).isLt
  have g := (geom_13 t).2.2.1
  omega

/-! ## (G2) Which elements of a block a transfer moves: those whose row lies inside the array -/

theorem moved_1 (t : Fin cfg0.N) (j : S512x10000.Idx) :
    win0_1.moved (grid0.coords t) j = true ↔ 512 * t.val + (j 0).val < 10000 := by
  rw [Pipeline.Window.moved_iff]
  obtain ⟨-, -, g0, g1⟩ := geom_1 t
  have h0 : (j 0).val < 512 := idx2_lt0 j
  have h1 : (j 1).val < 10000 := idx2_lt1 j
  constructor
  · intro h
    have := h (0 : Fin 2)
    omega
  · intro h a
    match a with
    | ⟨0, _⟩ => show (j 0).val < win0_1.xsize (grid0.coords t) (0 : Fin 2); omega
    | ⟨1, _⟩ => show (j 1).val < win0_1.xsize (grid0.coords t) (1 : Fin 2); omega

theorem moved_12 (t : Fin cfg0.N) (j : S512x64.Idx) :
    win0_12.moved (grid0.coords t) j = true ↔ 512 * t.val + (j 0).val < 10000 := by
  rw [Pipeline.Window.moved_iff]
  obtain ⟨-, -, g0, g1⟩ := geom_12 t
  have h0 : (j 0).val < 512 := idx2_lt0 j
  have h1 : (j 1).val < 64 := idx2_lt1 j
  constructor
  · intro h
    have := h (0 : Fin 2)
    omega
  · intro h a
    match a with
    | ⟨0, _⟩ => show (j 0).val < win0_12.xsize (grid0.coords t) (0 : Fin 2); omega
    | ⟨1, _⟩ => show (j 1).val < win0_12.xsize (grid0.coords t) (1 : Fin 2); omega

theorem moved_13 (t : Fin cfg0.N) (j : S512x64.Idx) :
    win0_13.moved (grid0.coords t) j = true ↔ 512 * t.val + (j 0).val < 10000 := by
  rw [Pipeline.Window.moved_iff]
  obtain ⟨-, -, g0, g1⟩ := geom_13 t
  have h0 : (j 0).val < 512 := idx2_lt0 j
  have h1 : (j 1).val < 64 := idx2_lt1 j
  constructor
  · intro h
    have := h (0 : Fin 2)
    omega
  · intro h a
    match a with
    | ⟨0, _⟩ => show (j 0).val < win0_13.xsize (grid0.coords t) (0 : Fin 2); omega
    | ⟨1, _⟩ => show (j 1).val < win0_13.xsize (grid0.coords t) (1 : Fin 2); omega

/-! ## (G3) A staged adjacency row inside the array is the array's row -/

theorem staged_row (c : Dev nD) (t : Fin cfg0.N) (d : S512x10000.Idx → Elt F .f32) (p : Fin 512) (k : Fin 10000)
    (h : 512 * t.val + p.val < 10000) :
    win0_1.fill (grid0.coords t) d (iblk m c 1 t) (ix2 p k) = V m c main_arg1 (ix2 ⟨512 * t.val + p.val, h⟩ k) := by
  unfold Pipeline.Window.fill
  rw [dif_pos ((moved_1 t (ix2 p k)).mpr h)]
  obtain ⟨g0, g1, -, -⟩ := geom_1 t
  show V m c main_arg1 ((win0_1.blk t).view.emb _) = V m c main_arg1 _
  refine congrArg _ (funext fun a => Fin.ext ?_)
  match a with
  | ⟨0, _⟩ =>
    show win0_1.index t (0 : Fin 2) * 512 + 1 * p.val = 512 * t.val + p.val
    omega
  | ⟨1, _⟩ =>
    show win0_1.index t (1 : Fin 2) * 10000 + 1 * k.val = k.val
    omega

end Cert.KernelIdeal.RowBlocks

end
-- ==== Proof.Ideal.RowBlocksOut.lean ====
/-
  Where a written-back element sits. Each result is written back 512 rows at a time; an element of the block
  at point t lies in the array at row 512 t plus its row in the block, at its own column, and in the block at
  its own coordinates. Every row r of a result lies in the block of point r / 512, and every point writes back.
-/
import proofs.«174787_g59639915872695_cont_sun_m_860_22_alg».proof.Proof.Ideal.RowBlocks

set_option maxRecDepth 16384

noncomputable section

namespace Cert.KernelIdeal.RowBlocks

open Cert.KernelIdeal Cert.KernelIdeal.Gen Idealize.ShloMosaic Idealize.ShloMosaic.ValueIdx

/-! ## (G4) Where a written-back element sits: in its array, and in its block -/

/-- A moved element's column is one of the sixty-four. -/
theorem col_lt_12 (t : Fin cfg0.N) (y : (win0_12.xblock (grid0.coords t)).Idx) : (y 1).val < 64 := by
  have h : (y 1).val < win0_12.xsize (grid0.coords t) (1 : Fin 2) := (y 1).isLt
  have g := (geom_12 t).2.2.2
  omega

theorem col_lt_13 (t : Fin cfg0.N) (y : (win0_13.xblock (grid0.coords t)).Idx) : (y 1).val < 64 := by
  have h : (y 1).val < win0_13.xsize (grid0.coords t) (1 : Fin 2) := (y 1).isLt
  have g := (geom_13 t).2.2.2
  omega

/-- A moved element's row within its block is one of the five hundred and twelve. -/
theorem brow_lt_12 (t : Fin cfg0.N) (y : (win0_12.xblock (grid0.coords t)).Idx) : (y 0).val < 512 := by
  have h : (y 0).val < win0_12.xsize (grid0.coords t) (0 : Fin 2) := (y 0).isLt
  have g := (geom_12 t).2.2.1
  omega

theorem brow_lt_13 (t : Fin cfg0.N) (y : (win0_13.xblock (grid0.coords t)).Idx) : (y 0).val < 512 := by
  have h : (y 0).val < win0_13.xsize (grid0.coords t) (0 : Fin 2) := (y 0).isLt
  have g := (geom_13 t).2.2.1
  omega

/-- Element `y` of the first result's block at point `t` is the array's element at row `512 t + y₀`, column `y₁`. -/
theorem emb_12 (t : Fin cfg0.N) (y : (win0_12.xblock (grid0.coords t)).Idx) :
    ((win0_12.blk t).view.emb y : S10000x64.Idx)
      = ix2 ⟨512 * t.val + (y 0).val, row_lt_12 t y⟩ ⟨(y 1).val, col_lt_12 t y⟩ := by
  obtain ⟨g0, g1, -, -⟩ := geom_12 t
  refine funext fun a => Fin.ext ?_
  match a with
  | ⟨0, _⟩ =>
    show win0_12.index t (0 : Fin 2) * 512 + 1 * (y 0).val = 512 * t.val + (y 0).val
    omega
  | ⟨1, _⟩ =>
    show win0_12.index t (1 : Fin 2) * 64 + 1 * (y 1).val = (y 1).val
    omega

theorem emb_13 (t : Fin cfg0.N) (y : (win0_13.xblock (grid0.coords t)).Idx) :
    ((win0_13.blk t).view.emb y : S10000x64.Idx)
      = ix2 ⟨512 * t.val + (y 0).val, row_lt_13 t y⟩ ⟨(y 1).val, col_lt_13 t y⟩ := by
  obtain ⟨g0, g1, -, -⟩ := geom_13 t
  refine funext fun a => Fin.ext ?_
  match a with
  | ⟨0, _⟩ =>
    show win0_13.index t (0 : Fin 2) * 512 + 1 * (y 0).val = 512 * t.val + (y 0).val
    omega
  | ⟨1, _⟩ =>
    show win0_13.index t (1 : Fin 2) * 64 + 1 * (y 1).val = (y 1).val
    omega

/-- In its block it sits at its own coordinates. -/
theorem xinj_12 (t : Fin cfg0.N) (y : (win0_12.xblock (grid0.coords t)).Idx) :
    (win0_12.xinj (grid0.coords t) y : S512x64.Idx) = ix2 ⟨(y 0).val, brow_lt_12 t y⟩ ⟨(y 1).val, col_lt_12 t y⟩ := by
  refine funext fun a => ?_
  match a with
  | ⟨0, _⟩ => rfl
  | ⟨1, _⟩ => rfl

theorem xinj_13 (t : Fin cfg0.N) (y : (win0_13.xblock (grid0.coords t)).Idx) :
    (win0_13.xinj (grid0.coords t) y : S512x64.Idx) = ix2 ⟨(y 0).val, brow_lt_13 t y⟩ ⟨(y 1).val, col_lt_13 t y⟩ := by
  refine funext fun a => ?_
  match a with
  | ⟨0, _⟩ => rfl
  | ⟨1, _⟩ => rfl

/-! ## (G5) The written-back blocks cover the results: row `r` lies in the block of point `r / 512` -/

theorem cover_12 (i : S10000x64.Idx) :
    ∃ t : Fin cfg0.N, (cfg0.win 12).flush t = true ∧ i ∈ ((cfg0.win 12).blk t).view.set := by
  have h0 : (i 0).val < 10000 := idx2_lt0 i
  have h1 : (i 1).val < 64 := idx2_lt1 i
  obtain ⟨t, ht⟩ : ∃ t : Fin cfg0.N, t.val = (i 0).val / 512 :=
    ⟨⟨(i 0).val / 512, by show (i 0).val / 512 < 20; omega⟩, rfl⟩
  refine ⟨t, flush0_12 t, ?_⟩
  obtain ⟨g0, g1, gx0, gx1⟩ := geom_12 t
  show i ∈ ((View.whole main_v5_0).slice (win0_12.rect t)).set
  rw [View.set_slice_whole, Rect.mem_set_unit]
  intro a
  match a with
  | ⟨0, _⟩ =>
    show win0_12.index t (0 : Fin 2) * 512 ≤ (i 0).val
      ∧ (i 0).val < win0_12.index t (0 : Fin 2) * 512 + win0_12.xsize (grid0.coords t) (0 : Fin 2)
    omega
  | ⟨1, _⟩ =>
    show win0_12.index t (1 : Fin 2) * 64 ≤ (i 1).val
      ∧ (i 1).val < win0_12.index t (1 : Fin 2) * 64 + win0_12.xsize (grid0.coords t) (1 : Fin 2)
    omega

theorem cover_13 (i : S10000x64.Idx) :
    ∃ t : Fin cfg0.N, (cfg0.win 13).flush t = true ∧ i ∈ ((cfg0.win 13).blk t).view.set := by
  have h0 : (i 0).val < 10000 := idx2_lt0 i
  have h1 : (i 1).val < 64 := idx2_lt1 i
  obtain ⟨t, ht⟩ : ∃ t : Fin cfg0.N, t.val = (i 0).val / 512 :=
    ⟨⟨(i 0).val / 512, by show (i 0).val / 512 < 20; omega⟩, rfl⟩
  refine ⟨t, flush0_13 t, ?_⟩
  obtain ⟨g0, g1, gx0, gx1⟩ := geom_13 t
  show i ∈ ((View.whole main_v5_1).slice (win0_13.rect t)).set
  rw [View.set_slice_whole, Rect.mem_set_unit]
  intro a
  match a with
  | ⟨0, _⟩ =>
    show win0_13.index t (0 : Fin 2) * 512 ≤ (i 0).val
      ∧ (i 0).val < win0_13.index t (0 : Fin 2) * 512 + win0_13.xsize (grid0.coords t) (0 : Fin 2)
    omega
  | ⟨1, _⟩ =>
    show win0_13.index t (1 : Fin 2) * 64 ≤ (i 1).val
      ∧ (i 1).val < win0_13.index t (1 : Fin 2) * 64 + win0_13.xsize (grid0.coords t) (1 : Fin 2)
    omega

end Cert.KernelIdeal.RowBlocks

end
-- ==== Proof.Ideal.RowBlocksWhole.lean ====
/-
  The operands staged whole. Eleven of the kernel's windows take their whole array as one block, at block
  index (0, 0) at every grid point: the block read off the array is the array. Five of those arrays are
  vectors the host reshaped into one-row matrices before the region: row 0 of each is the vector.
-/
import proofs.«174787_g59639915872695_cont_sun_m_860_22_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.RowBlocks

open Cert.KernelIdeal Cert.KernelIdeal.Gen Idealize.ShloMosaic Idealize.ShloMosaic.ValueIdx
open Idealize.ShloMosaic.TcCoe

variable {F : FTy → Type} [FloatOps F]
variable (m : (ℓ : Loc nD τ sig) → Buf (Elt F) ℓ)

/-! ## The whole-array windows' block index is (0, 0) at every point -/

theorem origin_0 : ∀ t : Fin cfg0.N, win0_0.index t (0 : Fin 2) = 0 ∧ win0_0.index t (1 : Fin 2) = 0 :=
  (by decide +kernel : ∀ t : Fin grid0.N, _)
theorem origin_2 : ∀ t : Fin cfg0.N, win0_2.index t (0 : Fin 2) = 0 ∧ win0_2.index t (1 : Fin 2) = 0 :=
  (by decide +kernel : ∀ t : Fin grid0.N, _)
theorem origin_3 : ∀ t : Fin cfg0.N, win0_3.index t (0 : Fin 2) = 0 ∧ win0_3.index t (1 : Fin 2) = 0 :=
  (by decide +kernel : ∀ t : Fin grid0.N, _)
theorem origin_4 : ∀ t : Fin cfg0.N, win0_4.index t (0 : Fin 2) = 0 ∧ win0_4.index t (1 : Fin 2) = 0 :=
  (by decide +kernel : ∀ t : Fin grid0.N, _)
theorem origin_5 : ∀ t : Fin cfg0.N, win0_5.index t (0 : Fin 2) = 0 ∧ win0_5.index t (1 : Fin 2) = 0 :=
  (by decide +kernel : ∀ t : Fin grid0.N, _)
theorem origin_6 : ∀ t : Fin cfg0.N, win0_6.index t (0 : Fin 2) = 0 ∧ win0_6.index t (1 : Fin 2) = 0 :=
  (by decide +kernel : ∀ t : Fin grid0.N, _)
theorem origin_7 : ∀ t : Fin cfg0.N, win0_7.index t (0 : Fin 2) = 0 ∧ win0_7.index t (1 : Fin 2) = 0 :=
  (by decide +kernel : ∀ t : Fin grid0.N, _)
theorem origin_8 : ∀ t : Fin cfg0.N, win0_8.index t (0 : Fin 2) = 0 ∧ win0_8.index t (1 : Fin 2) = 0 :=
  (by decide +kernel : ∀ t : Fin grid0.N, _)
theorem origin_9 : ∀ t : Fin cfg0.N, win0_9.index t (0 : Fin 2) = 0 ∧ win0_9.index t (1 : Fin 2) = 0 :=
  (by decide +kernel : ∀ t : Fin grid0.N, _)
theorem origin_10 : ∀ t : Fin cfg0.N, win0_10.index t (0 : Fin 2) = 0 ∧ win0_10.index t (1 : Fin 2) = 0 :=
  (by decide +kernel : ∀ t : Fin grid0.N, _)
theorem origin_11 : ∀ t : Fin cfg0.N, win0_11.index t (0 : Fin 2) = 0 ∧ win0_11.index t (1 : Fin 2) = 0 :=
  (by decide +kernel : ∀ t : Fin grid0.N, _)

/-! ## (G6) Their block at any point is the array -/

/-- Window 0's block at any point is all of `main_arg0`. -/
theorem whole_0 (c : Dev nD) (t : Fin cfg0.N) : (iblk m c 0 t : S10000x128.Idx → Elt F .f32) = V m c main_arg0 := by
  obtain ⟨g0, g1⟩ := origin_0 t
  funext j
  show V m c main_arg0 ((win0_0.blk t).view.emb j) = V m c main_arg0 j
  refine congrArg _ (funext fun a => Fin.ext ?_)
  match a with
  | ⟨0, _⟩ =>
    show win0_0.index t (0 : Fin 2) * 10000 + 1 * (j 0).val = (j 0).val
    omega
  | ⟨1, _⟩ =>
    show win0_0.index t (1 : Fin 2) * 128 + 1 * (j 1).val = (j 1).val
    omega

/-- Window 2's block at any point is all of `main_arg2`. -/
theorem whole_2 (c : Dev nD) (t : Fin cfg0.N) : (iblk m c 2 t : S128x128.Idx → Elt F .f32) = V m c main_arg2 := by
  obtain ⟨g0, g1⟩ := origin_2 t
  funext j
  show V m c main_arg2 ((win0_2.blk t).view.emb j) = V m c main_arg2 j
  refine congrArg _ (funext fun a => Fin.ext ?_)
  match a with
  | ⟨0, _⟩ =>
    show win0_2.index t (0 : Fin 2) * 128 + 1 * (j 0).val = (j 0).val
    omega
  | ⟨1, _⟩ =>
    show win0_2.index t (1 : Fin 2) * 128 + 1 * (j 1).val = (j 1).val
    omega

/-- Window 3's block at any point is all of `main_v0`. -/
theorem whole_3 (c : Dev nD) (t : Fin cfg0.N) : (iblk m c 3 t : S1x128.Idx → Elt F .f32) = V m c main_v0 := by
  obtain ⟨g0, g1⟩ := origin_3 t
  funext j
  show V m c main_v0 ((win0_3.blk t).view.emb j) = V m c main_v0 j
  refine congrArg _ (funext fun a => Fin.ext ?_)
  match a with
  | ⟨0, _⟩ =>
    show win0_3.index t (0 : Fin 2) * 1 + 1 * (j 0).val = (j 0).val
    omega
  | ⟨1, _⟩ =>
    show win0_3.index t (1 : Fin 2) * 128 + 1 * (j 1).val = (j 1).val
    omega

/-- Window 4's block at any point is all of `main_arg4`. -/
theorem whole_4 (c : Dev nD) (t : Fin cfg0.N) : (iblk m c 4 t : S64x128.Idx → Elt F .f32) = V m c main_arg4 := by
  obtain ⟨g0, g1⟩ := origin_4 t
  funext j
  show V m c main_arg4 ((win0_4.blk t).view.emb j) = V m c main_arg4 j
  refine congrArg _ (funext fun a => Fin.ext ?_)
  match a with
  | ⟨0, _⟩ =>
    show win0_4.index t (0 : Fin 2) * 64 + 1 * (j 0).val = (j 0).val
    omega
  | ⟨1, _⟩ =>
    show win0_4.index t (1 : Fin 2) * 128 + 1 * (j 1).val = (j 1).val
    omega

/-- Window 5's block at any point is all of `main_v1`. -/
theorem whole_5 (c : Dev nD) (t : Fin cfg0.N) : (iblk m c 5 t : S1x64.Idx → Elt F .f32) = V m c main_v1 := by
  obtain ⟨g0, g1⟩ := origin_5 t
  funext j
  show V m c main_v1 ((win0_5.blk t).view.emb j) = V m c main_v1 j
  refine congrArg _ (funext fun a => Fin.ext ?_)
  match a with
  | ⟨0, _⟩ =>
    show win0_5.index t (0 : Fin 2) * 1 + 1 * (j 0).val = (j 0).val
    omega
  | ⟨1, _⟩ =>
    show win0_5.index t (1 : Fin 2) * 64 + 1 * (j 1).val = (j 1).val
    omega

/-- Window 6's block at any point is all of `main_arg6`. -/
theorem whole_6 (c : Dev nD) (t : Fin cfg0.N) : (iblk m c 6 t : S64x64.Idx → Elt F .f32) = V m c main_arg6 := by
  obtain ⟨g0, g1⟩ := origin_6 t
  funext j
  show V m c main_arg6 ((win0_6.blk t).view.emb j) = V m c main_arg6 j
  refine congrArg _ (funext fun a => Fin.ext ?_)
  match a with
  | ⟨0, _⟩ =>
    show win0_6.index t (0 : Fin 2) * 64 + 1 * (j 0).val = (j 0).val
    omega
  | ⟨1, _⟩ =>
    show win0_6.index t (1 : Fin 2) * 64 + 1 * (j 1).val = (j 1).val
    omega

/-- Window 7's block at any point is all of `main_v2`. -/
theorem whole_7 (c : Dev nD) (t : Fin cfg0.N) : (iblk m c 7 t : S1x64.Idx → Elt F .f32) = V m c main_v2 := by
  obtain ⟨g0, g1⟩ := origin_7 t
  funext j
  show V m c main_v2 ((win0_7.blk t).view.emb j) = V m c main_v2 j
  refine congrArg _ (funext fun a => Fin.ext ?_)
  match a with
  | ⟨0, _⟩ =>
    show win0_7.index t (0 : Fin 2) * 1 + 1 * (j 0).val = (j 0).val
    omega
  | ⟨1, _⟩ =>
    show win0_7.index t (1 : Fin 2) * 64 + 1 * (j 1).val = (j 1).val
    omega

/-- Window 8's block at any point is all of `main_arg8`. -/
theorem whole_8 (c : Dev nD) (t : Fin cfg0.N) : (iblk m c 8 t : S64x128.Idx → Elt F .f32) = V m c main_arg8 := by
  obtain ⟨g0, g1⟩ := origin_8 t
  funext j
  show V m c main_arg8 ((win0_8.blk t).view.emb j) = V m c main_arg8 j
  refine congrArg _ (funext fun a => Fin.ext ?_)
  match a with
  | ⟨0, _⟩ =>
    show win0_8.index t (0 : Fin 2) * 64 + 1 * (j 0).val = (j 0).val
    omega
  | ⟨1, _⟩ =>
    show win0_8.index t (1 : Fin 2) * 128 + 1 * (j 1).val = (j 1).val
    omega

/-- Window 9's block at any point is all of `main_v3`. -/
theorem whole_9 (c : Dev nD) (t : Fin cfg0.N) : (iblk m c 9 t : S1x64.Idx → Elt F .f32) = V m c main_v3 := by
  obtain ⟨g0, g1⟩ := origin_9 t
  funext j
  show V m c main_v3 ((win0_9.blk t).view.emb j) = V m c main_v3 j
  refine congrArg _ (funext fun a => Fin.ext ?_)
  match a with
  | ⟨0, _⟩ =>
    show win0_9.index t (0 : Fin 2) * 1 + 1 * (j 0).val = (j 0).val
    omega
  | ⟨1, _⟩ =>
    show win0_9.index t (1 : Fin 2) * 64 + 1 * (j 1).val = (j 1).val
    omega

/-- Window 10's block at any point is all of `main_arg10`. -/
theorem whole_10 (c : Dev nD) (t : Fin cfg0.N) : (iblk m c 10 t : S64x64.Idx → Elt F .f32) = V m c main_arg10 := by
  obtain ⟨g0, g1⟩ := origin_10 t
  funext j
  show V m c main_arg10 ((win0_10.blk t).view.emb j) = V m c main_arg10 j
  refine congrArg _ (funext fun a => Fin.ext ?_)
  match a with
  | ⟨0, _⟩ =>
    show win0_10.index t (0 : Fin 2) * 64 + 1 * (j 0).val = (j 0).val
    omega
  | ⟨1, _⟩ =>
    show win0_10.index t (1 : Fin 2) * 64 + 1 * (j 1).val = (j 1).val
    omega

/-- Window 11's block at any point is all of `main_v4`. -/
theorem whole_11 (c : Dev nD) (t : Fin cfg0.N) : (iblk m c 11 t : S1x64.Idx → Elt F .f32) = V m c main_v4 := by
  obtain ⟨g0, g1⟩ := origin_11 t
  funext j
  show V m c main_v4 ((win0_11.blk t).view.emb j) = V m c main_v4 j
  refine congrArg _ (funext fun a => Fin.ext ?_)
  match a with
  | ⟨0, _⟩ =>
    show win0_11.index t (0 : Fin 2) * 1 + 1 * (j 0).val = (j 0).val
    omega
  | ⟨1, _⟩ =>
    show win0_11.index t (1 : Fin 2) * 64 + 1 * (j 1).val = (j 1).val
    omega

/-! ## The one-row arrays: each is a vector the host reshaped before the region, so its row 0 is the vector -/

theorem bias_0 (c : Dev nD) (q : Fin 128) :
    V m c main_v0 (ix2 0 q) = m ((c : Thread nD τ).loc main_arg3) (ix1 q) := by
  have e : (V m c main_v0 : S1x128.Idx → Elt F .f32)
      = shapeCast S1x128 (m ((c : Thread nD τ).loc main_arg3)) shapeCasts_S128_S1x128 := by
    dsimp only [Gen.V, Gen.hostOps0]; after_results; rfl
  rw [e]
  exact shapeCast_apply _ _ (ix2 (0 : Fin 1) q) (ix1 q) (by
    rw [Shape.rowMajor_val_two, Shape.rowMajor_val_one]; show q.val = 0 * 128 + q.val; omega)

theorem bias_1 (c : Dev nD) (q : Fin 64) :
    V m c main_v1 (ix2 0 q) = m ((c : Thread nD τ).loc main_arg5) (ix1 q) := by
  have e : (V m c main_v1 : S1x64.Idx → Elt F .f32)
      = shapeCast S1x64 (m ((c : Thread nD τ).loc main_arg5)) shapeCasts_S64_S1x64 := by
    dsimp only [Gen.V, Gen.hostOps0]; after_results; rfl
  rw [e]
  exact shapeCast_apply _ _ (ix2 (0 : Fin 1) q) (ix1 q) (by
    rw [Shape.rowMajor_val_two, Shape.rowMajor_val_one]; show q.val = 0 * 64 + q.val; omega)

theorem bias_2 (c : Dev nD) (q : Fin 64) :
    V m c main_v2 (ix2 0 q) = m ((c : Thread nD τ).loc main_arg7) (ix1 q) := by
  have e : (V m c main_v2 : S1x64.Idx → Elt F .f32)
      = shapeCast S1x64 (m ((c : Thread nD τ).loc main_arg7)) shapeCasts_S64_S1x64 := by
    dsimp only [Gen.V, Gen.hostOps0]; after_results; rfl
  rw [e]
  exact shapeCast_apply _ _ (ix2 (0 : Fin 1) q) (ix1 q) (by
    rw [Shape.rowMajor_val_two, Shape.rowMajor_val_one]; show q.val = 0 * 64 + q.val; omega)

theorem bias_3 (c : Dev nD) (q : Fin 64) :
    V m c main_v3 (ix2 0 q) = m ((c : Thread nD τ).loc main_arg9) (ix1 q) := by
  have e : (V m c main_v3 : S1x64.Idx → Elt F .f32)
      = shapeCast S1x64 (m ((c : Thread nD τ).loc main_arg9)) shapeCasts_S64_S1x64 := by
    dsimp only [Gen.V, Gen.hostOps0]; after_results; rfl
  rw [e]
  exact shapeCast_apply _ _ (ix2 (0 : Fin 1) q) (ix1 q) (by
    rw [Shape.rowMajor_val_two, Shape.rowMajor_val_one]; show q.val = 0 * 64 + q.val; omega)

theorem bias_4 (c : Dev nD) (q : Fin 64) :
    V m c main_v4 (ix2 0 q) = m ((c : Thread nD τ).loc main_arg11) (ix1 q) := by
  have e : (V m c main_v4 : S1x64.Idx → Elt F .f32)
      = shapeCast S1x64 (m ((c : Thread nD τ).loc main_arg11)) shapeCasts_S64_S1x64 := by
    dsimp only [Gen.V, Gen.hostOps0]; after_results; rfl
  rw [e]
  exact shapeCast_apply _ _ (ix2 (0 : Fin 1) q) (ix1 q) (by
    rw [Shape.rowMajor_val_two, Shape.rowMajor_val_one]; show q.val = 0 * 64 + q.val; omega)

end Cert.KernelIdeal.RowBlocks

end
-- ==== Proof.Encoder.lean ====
/-
  The graph encoder as ONE function of its twelve arguments, entry by entry, on the extended reals.

  features = x·W1ᵀ + b1 (10000 × 128);  hidden = max(adj·features, 0) (10000 × 128);
  a head is  max(hidden·Waᵀ + ba, 0)·Wbᵀ + bb (10000 × 64);  the mean result is the first head, the spread result
  the soft-plus of the second, soft-plus v = max(v, 0) + log(1 + exp(0 − |v − 0|)).
  A matrix product is the plain sum over the shared coordinate; no order of summation is fixed beyond that of the
  finite sum, so a blocked evaluation of rows and a whole-array evaluation are the same entries.
-/
import Idealize.ShloMosaic.PureOps.Ideal
import Idealize.ShloMosaic.Lib.ValueIdx

noncomputable section

open scoped BigOperators

namespace Cert.Encoder

open Idealize.ShloMosaic Idealize.ShloMosaic.ValueIdx

/-- An r × c matrix of extended reals, and a vector of n of them. -/
abbrev Mat (r c : Nat) := FVec Ideal ⟨2, ![r, c]⟩ .f32
abbrev Row (n : Nat) := FVec Ideal ⟨1, ![n]⟩ .f32

/-- The number zero, as the all-zero f32 pattern denotes it. -/
abbrev zero : Ideal .f32 := FloatOps.ofBits .f32 0x00000000#32

/-- A·Bᵀ: entry (a, b) sums A's row a against B's row b. -/
def timesT {M K N : Nat} (A : Mat M K) (B : Mat N K) : Mat M N :=
  fun j => ∑ c : Fin K, A (ix2 (j 0) c) * B (ix2 (j 1) c)

/-- A·B: entry (a, b) sums A's row a against B's column b. -/
def times {M K N : Nat} (A : Mat M K) (B : Mat K N) : Mat M N :=
  fun j => ∑ c : Fin K, A (ix2 (j 0) c) * B (ix2 c (j 1))

/-- Add the vector b to every row. -/
def plusRow {M N : Nat} (A : Mat M N) (b : Row N) : Mat M N :=
  fun j => FloatOps.addf (A j) (b (ix1 (j 1)))

/-- Clamp every entry below at zero. -/
def relu {M N : Nat} (A : Mat M N) : Mat M N := fun j => FloatOps.maximumf (A j) zero

/-- max(v, 0) + log(1 + exp(0 − |v − 0|)), entry by entry. -/
def softplus {M N : Nat} (A : Mat M N) : Mat M N := fun j =>
  FloatOps.addf (FloatOps.maximumf (A j) zero)
    (FloatOps.log1p (FloatOps.exp (FloatOps.subf zero (FloatOps.absf (FloatOps.subf (A j) zero)))))

/-- The projected node features x·W1ᵀ + b1. -/
def features (x : Mat 10000 128) (W1 : Mat 128 128) (b1 : Row 128) : Mat 10000 128 := plusRow (timesT x W1) b1

/-- The hidden layer max(adj·features, 0). -/
def hidden (adj : Mat 10000 10000) (xw : Mat 10000 128) : Mat 10000 128 := relu (times adj xw)

/-- One two-layer head on the hidden layer. -/
def head (h : Mat 10000 128) (Wa : Mat 64 128) (ba : Row 64) (Wb : Mat 64 64) (bb : Row 64) : Mat 10000 64 :=
  plusRow (timesT (relu (plusRow (timesT h Wa) ba)) Wb) bb

/-- The mean result. -/
def mean (x : Mat 10000 128) (adj : Mat 10000 10000) (W1 : Mat 128 128) (b1 : Row 128)
    (Wm1 : Mat 64 128) (bm1 : Row 64) (Wm2 : Mat 64 64) (bm2 : Row 64) : Mat 10000 64 :=
  head (hidden adj (features x W1 b1)) Wm1 bm1 Wm2 bm2

/-- The spread result. -/
def spread (x : Mat 10000 128) (adj : Mat 10000 10000) (W1 : Mat 128 128) (b1 : Row 128)
    (Ws1 : Mat 64 128) (bs1 : Row 64) (Ws2 : Mat 64 64) (bs2 : Row 64) : Mat 10000 64 :=
  softplus (head (hidden adj (features x W1 b1)) Ws1 bs1 Ws2 bs2)

/-- A 1 × n matrix read as the vector of its one row. -/
def rowOf {n : Nat} (B : Mat 1 n) : Row n := fun j => B (ix2 0 (j 0))

end Cert.Encoder

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotT.lean ====
/-
  A matrix product with both operands contracted on their LAST axis and no batch axis, read at an entry at the ideal
  values, for any dimension numbers record whose axis lists are the stated ones (a printed record satisfies each
  hypothesis by `rfl`).

  With the accumulator the zero constant, the product of an `M × K` by an `N × K` operand at entry (a, b) is the sum
  over the shared coordinate `c` of the left operand's entry (a, c) times the right operand's entry (b, c): the left
  operand times the transpose of the right one.
-/
import Idealize.ShloMosaic.Lib.ValueIdx
import Idealize.ShloMosaic.PureOps.Ideal.Laws
import proofs.«174787_g59639915872695_cont_sun_m_860_22_alg».proof.Proof.LibDot

noncomputable section

open scoped BigOperators

namespace Cert.LibDotT

open Idealize.ShloMosaic Idealize.ShloMosaic.ValueIdx Cert.LibDot

/-- Rows by rows: an `M × K` by an `N × K` operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDotT

end
-- ==== Proof.Ideal.PayloadValue.lean ====
/-
  The kernel body's arithmetic read at an entry, at the ideal values.

  The body's stored values are pure functions of the values it loaded. Read entry by entry they are the
  specification's: the projected features x·W1ᵀ + b1 kept in the scratch; for a block of adjacency rows, each row's
  hidden layer max(row·features, 0) and from it the two small heads, the second under the soft-plus. Row p of a block
  product depends on row p of the left operand alone, so a block row that holds row r of the adjacency yields row r of
  each result whatever the block's other rows hold. A format change is the identity on the extended reals, and the
  soft-plus's guard "ordered and unequal to itself" never holds, so its select takes the closed form.
-/
import proofs.«174787_g59639915872695_cont_sun_m_860_22_alg».proof.Proof.Gen.KernelIdeal.Skeleton
import proofs.«174787_g59639915872695_cont_sun_m_860_22_alg».proof.Proof.Encoder
import proofs.«174787_g59639915872695_cont_sun_m_860_22_alg».proof.Proof.LibDot
import proofs.«174787_g59639915872695_cont_sun_m_860_22_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadValue

open Cert.KernelIdeal Cert.KernelIdeal.Gen Cert.Encoder
open Idealize.ShloMosaic Idealize.ShloMosaic.ValueIdx

/-! ## The three layout and product steps the payloads are made of -/

/-- A one-row matrix cast to its own shape and broadcast over the rows reads, at (p, c), the row's entry c. -/
theorem rowBroadcast_apply {a b : Nat} (B : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ B hc) hb (ix2 p c) = rowOf B (ix1 c) := by
  rw [shapeCast_self]
  exact broadcastTo_1b_ab_apply B hb p c

/-- One affine layer A·Wᵀ + b read at (p, c), for a product into the zero accumulator contracting both last axes. -/
theorem layer_apply {M K N : Nat} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![M, K]⟩ .f32) (W : FVec Ideal ⟨2, ![N, K]⟩ .f32) (B : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (c : Fin N) :
    addf (matmul (F := Ideal) d none A W (constant ⟨2, ![M, N]⟩ .f32 0x00000000#32))
        (broadcastTo ⟨2, ![M, N]⟩ (shapeCast ⟨2, ![1, N]⟩ B hc) hb) (ix2 p c)
      = FloatOps.addf (∑ k : Fin K, A (ix2 p k) * W (ix2 c k)) (rowOf B (ix1 c)) := by
  show FloatOps.addf _ _ = _
  rw [Cert.LibDotT.matmul_11_zero_apply d hlc hrc hln hrn hlb hrb none A W p c, rowBroadcast_apply B hc hb p c]

/-! ## The projected features -/

/-- The value kept in the scratch is the specification's projected features, entry by entry. -/
theorem features_eq (X : Vec Ideal S10000x128 .f32) (W : Vec Ideal S128x128 .f32) (B : Vec Ideal S1x128 .f32) :
    (k0_pay2 (F := Ideal) X W B : S10000x128.Idx → EReal) = features X W (rowOf B) := by
  funext j
  obtain ⟨p, q, rfl⟩ : ∃ (p : Fin 10000) (q : Fin 128), j = ix2 p q := ⟨j 0, j 1, eq_ix2 j⟩
  unfold k0_pay2
  rw [shapeCast_self]
  exact layer_apply dot_S10000x128_S128x128_S10000x128_1_1_0_0_n_n rfl rfl rfl rfl rfl rfl X W B _ _ p q

/-! ## A block of adjacency rows -/

/-- The block's hidden layer at (p, k): the clamped sum of block row p against column k of the kept features. -/
theorem hiddenBlock_apply (X2 : Vec Ideal S512x10000 .f32) (S : Vec Ideal S10000x128 .bf16) (p : Fin 512) (k : Fin 128) :
    k0_pay3 (F := Ideal) X2 S (ix2 p k)
      = FloatOps.maximumf (∑ m : Fin 10000, X2 (ix2 p m) * S (ix2 m k)) zero := by
  unfold k0_pay3
  show FloatOps.maximumf _ _ = _
  rw [Cert.LibDot.matmul_10_zero_apply dot_S512x10000_S10000x128_S512x128_1_0_0_1_n_n rfl rfl rfl rfl rfl rfl none _ S p k]
  rfl

/-- A block row that holds row r of the adjacency has row r of the specification's hidden layer. -/
theorem hiddenBlock_row (adj : Mat 10000 10000) (X2 : Vec Ideal S512x10000 .f32) (S : Vec Ideal S10000x128 .bf16)
    (p : Fin 512) (r : Fin 10000) (hrow : ∀ k : Fin 10000, X2 (ix2 p k) = adj (ix2 r k)) (k : Fin 128) :
    k0_pay3 (F := Ideal) X2 S (ix2 p k) = hidden adj S (ix2 r k) := by
  rw [hiddenBlock_apply]
  show _ = FloatOps.maximumf (∑ m : Fin 10000, adj (ix2 r m) * S (ix2 m k)) zero
  exact congrArg (fun t => FloatOps.maximumf t zero) (Finset.sum_congr rfl fun m _ => by rw [hrow m])

/-- The first layer of a head on the block, before its clamp, at (p, c). -/
theorem firstLayer_apply (adj : Mat 10000 10000) (X2 : Vec Ideal S512x10000 .f32) (S : Vec Ideal S10000x128 .bf16)
    (Wa : Vec Ideal S64x128 .f32) (Ba : Vec Ideal S1x64 .f32) (p : Fin 512) (r : Fin 10000)
    (hrow : ∀ k : Fin 10000, X2 (ix2 p k) = adj (ix2 r k)) (c : Fin 64) :
    k0_pay5 (F := Ideal) X2 S Wa Ba (ix2 p c) = plusRow (timesT (hidden adj S) Wa) (rowOf Ba) (ix2 r c) := by
  unfold k0_pay5
  rw [layer_apply dot_S512x128_S64x128_S512x64_1_1_0_0_n_n rfl rfl rfl rfl rfl rfl (k0_pay3 (F := Ideal) X2 S) Wa Ba _ _ p c]
  show _ = FloatOps.addf (∑ k : Fin 128, hidden adj S (ix2 r k) * Wa (ix2 c k)) (rowOf Ba (ix1 c))
  exact congrArg (fun t => FloatOps.addf t (rowOf Ba (ix1 c)))
    (Finset.sum_congr rfl fun k _ => by rw [hiddenBlock_row adj X2 S p r hrow k])

/-- A whole head on the block at (p, q), from its first layer before the clamp. -/
theorem headBlock_apply (adj : Mat 10000 10000) (X2 : Vec Ideal S512x10000 .f32) (S : Vec Ideal S10000x128 .bf16)
    (Wa : Vec Ideal S64x128 .f32) (Ba : Vec Ideal S1x64 .f32) (Wb : Vec Ideal S64x64 .f32) (Bb : Vec Ideal S1x64 .f32)
    (p : Fin 512) (q : Fin 64) (r : Fin 10000) (hrow : ∀ k : Fin 10000, X2 (ix2 p k) = adj (ix2 r k))
    (hc : S1x64.ShapeCasts S1x64) (hb : S1x64.Broadcasts S512x64) :
    addf (matmul (F := Ideal) (φ₁ := .f32) (φ₂ := .f32) dot_S512x64_S64x64_S512x64_1_1_0_0_n_n none
          (maximumf (k0_pay5 (F := Ideal) X2 S Wa Ba) (broadcast S512x64 (Scalar.ofBits .f32 0x00000000#32))) Wb
          (constant S512x64 .f32 0x00000000#32))
        (broadcastTo S512x64 (shapeCast S1x64 Bb hc) hb) (ix2 p q)
      = head (hidden adj S) Wa (rowOf Ba) Wb (rowOf Bb) (ix2 r q) := by
  rw [layer_apply dot_S512x64_S64x64_S512x64_1_1_0_0_n_n rfl rfl rfl rfl rfl rfl _ Wb Bb hc hb p q]
  show _ = FloatOps.addf (∑ c : Fin 64, relu (plusRow (timesT (hidden adj S) Wa) (rowOf Ba)) (ix2 r c) * Wb (ix2 q c))
      (rowOf Bb (ix1 q))
  refine congrArg (fun t => FloatOps.addf t (rowOf Bb (ix1 q))) (Finset.sum_congr rfl fun c _ => ?_)
  show FloatOps.maximumf (k0_pay5 (F := Ideal) X2 S Wa Ba (ix2 p c)) zero * _
    = FloatOps.maximumf (plusRow (timesT (hidden adj S) Wa) (rowOf Ba) (ix2 r c)) zero * _
  rw [firstLayer_apply adj X2 S Wa Ba p r hrow c]

/-- The mean block at (p, q) is the first head's entry (r, q). -/
theorem meanBlock_apply (adj : Mat 10000 10000) (X2 : Vec Ideal S512x10000 .f32) (S : Vec Ideal S10000x128 .bf16)
    (Wa : Vec Ideal S64x128 .f32) (Ba : Vec Ideal S1x64 .f32) (Wb : Vec Ideal S64x64 .f32) (Bb : Vec Ideal S1x64 .f32)
    (p : Fin 512) (q : Fin 64) (r : Fin 10000) (hrow : ∀ k : Fin 10000, X2 (ix2 p k) = adj (ix2 r k)) :
    k0_pay4 (F := Ideal) X2 S Wa Ba Wb Bb (ix2 p q) = head (hidden adj S) Wa (rowOf Ba) Wb (rowOf Bb) (ix2 r q) :=
  headBlock_apply adj X2 S Wa Ba Wb Bb p q r hrow _ _

/-- "Ordered and unequal" of a value with itself never holds. -/
theorem cmpf_one_self (x : Ideal .f32) : FloatOps.cmpf .one x x = 0#1 := by
  rw [Ideal.cmpf_def]
  simp [Ideal.cmp]

/-- The spread block at (p, q) is the soft-plus of the second head's entry (r, q). -/
theorem spreadBlock_apply (adj : Mat 10000 10000) (X2 : Vec Ideal S512x10000 .f32) (S : Vec Ideal S10000x128 .bf16)
    (Wa : Vec Ideal S64x128 .f32) (Ba : Vec Ideal S1x64 .f32) (Wb : Vec Ideal S64x64 .f32) (Bb : Vec Ideal S1x64 .f32)
    (p : Fin 512) (q : Fin 64) (r : Fin 10000) (hrow : ∀ k : Fin 10000, X2 (ix2 p k) = adj (ix2 r k)) :
    k0_pay1 (F := Ideal) (k0_pay5 (F := Ideal) X2 S Wa Ba) (Scalar.ofBits .f32 0x00000000#32) Wb Bb (ix2 p q)
      = softplus (head (hidden adj S) Wa (rowOf Ba) Wb (rowOf Bb)) (ix2 r q) := by
  have hd := headBlock_apply adj X2 S Wa Ba Wb Bb p q r hrow shapeCasts_S1x64_S1x64 broadcasts_S1x64_S512x64
  unfold k0_pay1
  rw [select_apply, cmpf_apply, cmpf_one_self, select_zero]
  show FloatOps.addf (FloatOps.maximumf _ zero)
      (FloatOps.log1p (FloatOps.exp (FloatOps.subf zero (FloatOps.absf (FloatOps.subf _ zero))))) = _
  rw [hd]
  rfl

end Cert.KernelIdeal.PayloadValue

end
-- ==== Proof.Ideal.Result.lean ====
/-
  The idealized kernel's results are the encoder's.

  A written-back entry of the mean block at row block t, row y₀, column y₁ is the first head's entry at array row
  512·t + y₀: the block's row is the adjacency array's row (the staged rows inside the array are the array's rows,
  whatever lies past its end), the kept features are x·W1ᵀ + b1 of the whole arrays, and the weights and reshaped
  biases staged whole are the arguments. So (1) the block computed from the rows actually staged agrees, on the rows
  written back, with the block over zero-filled rows — the locality the region's obligation assumed —, and (2) each
  written-back block is that block of ONE whole-array function, the specification; the row blocks cover the array, so
  the array ends holding it. The spread result is the same with the soft-plus outside.
-/
import proofs.«174787_g59639915872695_cont_sun_m_860_22_alg».proof.Proof.Ideal.Region
import proofs.«174787_g59639915872695_cont_sun_m_860_22_alg».proof.Proof.Ideal.RowBlocks
import proofs.«174787_g59639915872695_cont_sun_m_860_22_alg».proof.Proof.Ideal.RowBlocksOut
import proofs.«174787_g59639915872695_cont_sun_m_860_22_alg».proof.Proof.Ideal.RowBlocksWhole
import proofs.«174787_g59639915872695_cont_sun_m_860_22_alg».proof.Proof.Ideal.PayloadValue
import Idealize.ShloMosaic.Lib.Pipeline.Value

set_option maxRecDepth 16384

noncomputable section

namespace Cert.KernelIdeal.Result

open Cert.KernelIdeal Cert.KernelIdeal.Gen Cert.KernelIdeal.Region Cert.KernelIdeal.RowBlocks Cert.KernelIdeal.PayloadValue Cert.Encoder
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The twelve arguments, at the specification's types. -/
abbrev A0 (c : Dev nD) : Mat 10000 128 := m ((c : Thread nD τ).loc main_arg0)
abbrev A1 (c : Dev nD) : Mat 10000 10000 := m ((c : Thread nD τ).loc main_arg1)
abbrev A2 (c : Dev nD) : Mat 128 128 := m ((c : Thread nD τ).loc main_arg2)
abbrev A3 (c : Dev nD) : Row 128 := m ((c : Thread nD τ).loc main_arg3)
abbrev A4 (c : Dev nD) : Mat 64 128 := m ((c : Thread nD τ).loc main_arg4)
abbrev A5 (c : Dev nD) : Row 64 := m ((c : Thread nD τ).loc main_arg5)
abbrev A6 (c : Dev nD) : Mat 64 64 := m ((c : Thread nD τ).loc main_arg6)
abbrev A7 (c : Dev nD) : Row 64 := m ((c : Thread nD τ).loc main_arg7)
abbrev A8 (c : Dev nD) : Mat 64 128 := m ((c : Thread nD τ).loc main_arg8)
abbrev A9 (c : Dev nD) : Row 64 := m ((c : Thread nD τ).loc main_arg9)
abbrev A10 (c : Dev nD) : Mat 64 64 := m ((c : Thread nD τ).loc main_arg10)
abbrev A11 (c : Dev nD) : Row 64 := m ((c : Thread nD τ).loc main_arg11)

/-- The adjacency array as the region finds it is the argument. -/
theorem adj_eq (c : Dev nD) : (V m c main_arg1 : Mat 10000 10000) = A1 m c := V_main_arg1 m c

/-- A reshaped bias staged whole, read as a vector, is the argument. -/
theorem bias3 (c : Dev nD) (t : Fin cfg0.N) : rowOf (whole3 m c t) = A3 m c := by
  funext j
  refine (congrFun (whole_3 m c t) (ix2 0 (j 0))).trans ((bias_0 m c (j 0)).trans ?_)
  exact congrArg _ (eq_ix1 j).symm
theorem bias5 (c : Dev nD) (t : Fin cfg0.N) : rowOf (whole5 m c t) = A5 m c := by
  funext j
  refine (congrFun (whole_5 m c t) (ix2 0 (j 0))).trans ((bias_1 m c (j 0)).trans ?_)
  exact congrArg _ (eq_ix1 j).symm
theorem bias7 (c : Dev nD) (t : Fin cfg0.N) : rowOf (whole7 m c t) = A7 m c := by
  funext j
  refine (congrFun (whole_7 m c t) (ix2 0 (j 0))).trans ((bias_2 m c (j 0)).trans ?_)
  exact congrArg _ (eq_ix1 j).symm
theorem bias9 (c : Dev nD) (t : Fin cfg0.N) : rowOf (whole9 m c t) = A9 m c := by
  funext j
  refine (congrFun (whole_9 m c t) (ix2 0 (j 0))).trans ((bias_3 m c (j 0)).trans ?_)
  exact congrArg _ (eq_ix1 j).symm
theorem bias11 (c : Dev nD) (t : Fin cfg0.N) : rowOf (whole11 m c t) = A11 m c := by
  funext j
  refine (congrFun (whole_11 m c t) (ix2 0 (j 0))).trans ((bias_4 m c (j 0)).trans ?_)
  exact congrArg _ (eq_ix1 j).symm

/-- A weight staged whole is the argument. -/
theorem wgt0 (c : Dev nD) (t : Fin cfg0.N) : whole0 m c t = A0 m c := (whole_0 m c t).trans (V_main_arg0 m c)
theorem wgt2 (c : Dev nD) (t : Fin cfg0.N) : whole2 m c t = A2 m c := (whole_2 m c t).trans (V_main_arg2 m c)
theorem wgt4 (c : Dev nD) (t : Fin cfg0.N) : whole4 m c t = A4 m c := (whole_4 m c t).trans (V_main_arg4 m c)
theorem wgt6 (c : Dev nD) (t : Fin cfg0.N) : whole6 m c t = A6 m c := (whole_6 m c t).trans (V_main_arg6 m c)
theorem wgt8 (c : Dev nD) (t : Fin cfg0.N) : whole8 m c t = A8 m c := (whole_8 m c t).trans (V_main_arg8 m c)
theorem wgt10 (c : Dev nD) (t : Fin cfg0.N) : whole10 m c t = A10 m c := (whole_10 m c t).trans (V_main_arg10 m c)

/-- The kept features are x·W1ᵀ + b1 of the arguments. -/
theorem kept_eq (c : Dev nD) : (kept m c : S10000x128.Idx → EReal) = features (A0 m c) (A2 m c) (A3 m c) := by
  unfold kept
  rw [features_eq, wgt0 m c t₀, wgt2 m c t₀, bias3 m c t₀]

/-- The first head over the region's arrays is the mean result of the arguments; the second, under the soft-plus,
    the spread result. -/
theorem mean_fn (c : Dev nD) (t : Fin cfg0.N) :
    head (hidden (V m c main_arg1) (kept m c)) (whole4 m c t) (rowOf (whole5 m c t)) (whole6 m c t) (rowOf (whole7 m c t))
      = mean (A0 m c) (A1 m c) (A2 m c) (A3 m c) (A4 m c) (A5 m c) (A6 m c) (A7 m c) := by
  unfold mean
  rw [← kept_eq m c, adj_eq m c, wgt4 m c t, bias5 m c t, wgt6 m c t, bias7 m c t]
theorem spread_fn (c : Dev nD) (t : Fin cfg0.N) :
    softplus (head (hidden (V m c main_arg1) (kept m c)) (whole8 m c t) (rowOf (whole9 m c t)) (whole10 m c t) (rowOf (whole11 m c t)))
      = spread (A0 m c) (A1 m c) (A2 m c) (A3 m c) (A8 m c) (A9 m c) (A10 m c) (A11 m c) := by
  unfold spread
  rw [← kept_eq m c, adj_eq m c, wgt8 m c t, bias9 m c t, wgt10 m c t, bias11 m c t]

/-! ## A written-back entry -/

/-- The mean block computed from ANY staged rows that are the array's rows inside the array, at a written-back entry,
    is the first head's entry at that entry's place in the array. -/
theorem mean_at (c : Dev nD) (t : Fin cfg0.N) (X2 : Vec Ideal S512x10000 .f32)
    (hX : ∀ (p : Fin 512) (k : Fin 10000) (h : 512 * t.val + p.val < 10000),
      X2 (ix2 p k) = V m c main_arg1 (ix2 ⟨512 * t.val + p.val, h⟩ k))
    (y : (win0_12.xblock (grid0.coords t)).Idx) :
    k0_pay4 X2 (kept m c) (whole4 m c t) (whole5 m c t) (whole6 m c t) (whole7 m c t) (win0_12.xinj (grid0.coords t) y)
      = head (hidden (V m c main_arg1) (kept m c)) (whole4 m c t) (rowOf (whole5 m c t)) (whole6 m c t) (rowOf (whole7 m c t))
          ((win0_12.blk t).view.emb y) := by
  have e1 : (win0_12.xinj (grid0.coords t) y : S512x64.Idx)
      = ix2 ((win0_12.xinj (grid0.coords t) y) 0) ((win0_12.xinj (grid0.coords t) y) 1) := eq_ix2 _
  rw [e1, emb_12 t y]
  exact meanBlock_apply (V m c main_arg1) X2 (kept m c) (whole4 m c t) (whole5 m c t) (whole6 m c t) (whole7 m c t) _ _
    ⟨512 * t.val + (y 0).val, row_lt_12 t y⟩ (fun k => hX _ k (row_lt_12 t y))

theorem spread_at (c : Dev nD) (t : Fin cfg0.N) (X2 : Vec Ideal S512x10000 .f32)
    (hX : ∀ (p : Fin 512) (k : Fin 10000) (h : 512 * t.val + p.val < 10000),
      X2 (ix2 p k) = V m c main_arg1 (ix2 ⟨512 * t.val + p.val, h⟩ k))
    (y : (win0_13.xblock (grid0.coords t)).Idx) :
    k0_pay1 (k0_pay5 X2 (kept m c) (whole8 m c t) (whole9 m c t)) zeroW (whole10 m c t) (whole11 m c t) (win0_13.xinj (grid0.coords t) y)
      = softplus (head (hidden (V m c main_arg1) (kept m c)) (whole8 m c t) (rowOf (whole9 m c t)) (whole10 m c t) (rowOf (whole11 m c t)))
          ((win0_13.blk t).view.emb y) := by
  have e1 : (win0_13.xinj (grid0.coords t) y : S512x64.Idx)
      = ix2 ((win0_13.xinj (grid0.coords t) y) 0) ((win0_13.xinj (grid0.coords t) y) 1) := eq_ix2 _
  rw [e1, emb_13 t y]
  exact spreadBlock_apply (V m c main_arg1) X2 (kept m c) (whole8 m c t) (whole9 m c t) (whole10 m c t) (whole11 m c t) _ _
    ⟨512 * t.val + (y 0).val, row_lt_13 t y⟩ (fun k => hX _ k (row_lt_13 t y))

/-! ## Locality -/

theorem meanLocal : MeanLocal m := fun c t d => by
  funext y
  show k0_pay4 (win0_1.fill (grid0.coords t) d (iblk m c 1 t)) (kept m c) (whole4 m c t) (whole5 m c t) (whole6 m c t) (whole7 m c t) (win0_12.xinj (grid0.coords t) y)
    = meanBlk m c t (win0_12.xinj (grid0.coords t) y)
  unfold meanBlk adjRows
  rw [mean_at m c t _ (fun p k h => staged_row m c t d p k h) y, mean_at m c t _ (fun p k h => staged_row m c t _ p k h) y]

theorem spreadLocal : SpreadLocal m := fun c t d => by
  funext y
  show k0_pay1 (k0_pay5 (win0_1.fill (grid0.coords t) d (iblk m c 1 t)) (kept m c) (whole8 m c t) (whole9 m c t)) zeroW (whole10 m c t) (whole11 m c t) (win0_13.xinj (grid0.coords t) y)
    = spreadBlk m c t (win0_13.xinj (grid0.coords t) y)
  unfold spreadBlk adjRows
  rw [spread_at m c t _ (fun p k h => staged_row m c t d p k h) y, spread_at m c t _ (fun p k h => staged_row m c t _ p k h) y]

/-! ## From the row blocks to the arrays -/

/-- What row block t writes back of the mean window is its block of the mean result. -/
theorem flushed_12 (c : Dev nD) (t : Fin cfg0.N) :
    (dats m 0 c).flushed 12 t
      = ((cfg0.win 12).blk t).view.read (Elt Ideal) (mean (A0 m c) (A1 m c) (A2 m c) (A3 m c) (A4 m c) (A5 m c) (A6 m c) (A7 m c)) := by
  funext y
  show meanBlk m c t (win0_12.xinj (grid0.coords t) y) = _
  unfold meanBlk adjRows
  rw [mean_at m c t _ (fun p k h => staged_row m c t _ p k h) y, mean_fn m c t]
  rfl

theorem flushed_13 (c : Dev nD) (t : Fin cfg0.N) :
    (dats m 0 c).flushed 13 t
      = ((cfg0.win 13).blk t).view.read (Elt Ideal) (spread (A0 m c) (A1 m c) (A2 m c) (A3 m c) (A8 m c) (A9 m c) (A10 m c) (A11 m c)) := by
  funext y
  show spreadBlk m c t (win0_13.xinj (grid0.coords t) y) = _
  unfold spreadBlk adjRows
  rw [spread_at m c t _ (fun p k h => staged_row m c t _ p k h) y, spread_fn m c t]
  rfl

/-- The row blocks cover each result array, so it ends holding the result. -/
theorem final_12 (c : Dev nD) :
    (dats m 0 c).arrAt 12 cfg0.N = mean (A0 m c) (A1 m c) (A2 m c) (A3 m c) (A4 m c) (A5 m c) (A6 m c) (A7 m c) :=
  (dats m 0 c).arrAt_eq_of_cover 12 _ (fun t _ => flushed_12 m c t) cover_12
theorem final_13 (c : Dev nD) :
    (dats m 0 c).arrAt 13 cfg0.N = spread (A0 m c) (A1 m c) (A2 m c) (A3 m c) (A8 m c) (A9 m c) (A10 m c) (A11 m c) :=
  (dats m 0 c).arrAt_eq_of_cover 13 _ (fun t _ => flushed_13 m c t) cover_13

/-! ## The run -/

/-- Every weakly fair execution of the idealized kernel terminates, nothing faulting, with the two result arrays at
    the encoder's mean and spread of the arguments and the arguments unchanged. -/
theorem kernel_run :
    θ_run defs (onTc (τ := τ) (main (F := Ideal))) ⟨m, fun _ => 0, ρ⟩ (fun r => ∀ c : Dev nD,
      r.2.mem ((c.tc : Thread nD τ).loc main_v5_0) = mean (A0 m c) (A1 m c) (A2 m c) (A3 m c) (A4 m c) (A5 m c) (A6 m c) (A7 m c)
      ∧ r.2.mem ((c.tc : Thread nD τ).loc main_v5_0) = mean (A0 m c) (A1 m c) (A2 m c) (A3 m c) (A4 m c) (A5 m c) (A6 m c) (A7 m c)
      ∧ r.2.mem ((c.tc : Thread nD τ).loc main_v5_1) = spread (A0 m c) (A1 m c) (A2 m c) (A3 m c) (A8 m c) (A9 m c) (A10 m c) (A11 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 12).trans (final_12 m c), ((h c).1 12).trans (final_12 m c), ((h c).1 13).trans (final_13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).1 10).trans (((dats m 0 c).arrAt_in 10 rfl _).trans ((A_eq m c 10).trans (V_main_arg10 m c))),
      ((h c).2 main_arg11 (Pipeline.mem_restRefs_of main_arg11 (by decide) (by decide))).trans (V_main_arg11 m c)⟩)
    (run_main m ρ (meanLocal m) (spreadLocal m))

end Cert.KernelIdeal.Result

end
-- ==== Proof.RefValue.lean ====
/-
  The reference program read as the specification: on the extended reals its run ends with the mean result at
  `Cert.Encoder.mean` and the spread result at `Cert.Encoder.spread` of the twelve arguments.

  Stage by stage, entry by entry. A weight is transposed and then contracted along its first axis, so entry (a, b) of
  x·Wᵀ sums x(a, c)·W(b, c) over c; a bias of n entries becomes one row and then every row; the clamp is the maximum
  against the zero constant spread over the array. In the soft-plus the selection is taken on "v − 0 differs from
  itself", which no extended real does, so its last operand is the result; and the negation of |v − 0| is 0 − |v − 0|.
-/
import proofs.«174787_g59639915872695_cont_sun_m_860_22_alg».proof.Proof.Gen.ReferenceIdeal.Read
import proofs.«174787_g59639915872695_cont_sun_m_860_22_alg».proof.Proof.Encoder

noncomputable section

open scoped BigOperators

namespace Cert.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ## Where each operation reads its operands

A product against a transposed weight reads row `i 0` of the left factor and row `i 1` of the weight at the shared
coordinate; the plain product reads row `i 0` against column `i 1`; a bias broadcast over the rows is read at the
column `i 1`. -/

theorem lidx1 (i : S10000x128.Idx) (k : Fin 128) : lidx_main_v1 i k = ix2 (i 0) k :=
  funext fun a => Fin.ext (by match a with | ⟨0, _⟩ => rfl | ⟨1, _⟩ => rfl)
theorem ridx1 (i : S10000x128.Idx) (k : Fin 128) : idx_main_v0 (ridx_main_v1 i k) = ix2 (i 1) k :=
  funext fun a => Fin.ext (by match a with | ⟨0, _⟩ => rfl | ⟨1, _⟩ => rfl)
theorem bidx3 (i : S10000x128.Idx) : idx_main_v2 (idx_main_v3 i) = ix1 (i 1) :=
  funext fun a => Fin.ext (by match a with | ⟨0, _⟩ => rfl)
theorem lidx5 (i : S10000x128.Idx) (k : Fin 10000) : lidx_main_v5 i k = ix2 (i 0) k :=
  funext fun a => Fin.ext (by match a with | ⟨0, _⟩ => rfl | ⟨1, _⟩ => rfl)
theorem ridx5 (i : S10000x128.Idx) (k : Fin 10000) : ridx_main_v5 i k = ix2 k (i 1) :=
  funext fun a => Fin.ext (by match a with | ⟨0, _⟩ => rfl | ⟨1, _⟩ => rfl)
theorem lidx8 (i : S10000x64.Idx) (k : Fin 128) : lidx_main_v8 i k = ix2 (i 0) k :=
  funext fun a => Fin.ext (by match a with | ⟨0, _⟩ => rfl | ⟨1, _⟩ => rfl)
theorem ridx8 (i : S10000x64.Idx) (k : Fin 128) : idx_main_v7 (ridx_main_v8 i k) = ix2 (i 1) k :=
  funext fun a => Fin.ext (by match a with | ⟨0, _⟩ => rfl | ⟨1, _⟩ => rfl)
theorem bidx10 (i : S10000x64.Idx) : idx_main_v9 (idx_main_v10 i) = ix1 (i 1) :=
  funext fun a => Fin.ext (by match a with | ⟨0, _⟩ => rfl)
theorem lidx14 (i : S10000x64.Idx) (k : Fin 64) : lidx_main_v14 i k = ix2 (i 0) k :=
  funext fun a => Fin.ext (by match a with | ⟨0, _⟩ => rfl | ⟨1, _⟩ => rfl)
theorem ridx14 (i : S10000x64.Idx) (k : Fin 64) : idx_main_v13 (ridx_main_v14 i k) = ix2 (i 1) k :=
  funext fun a => Fin.ext (by match a with | ⟨0, _⟩ => rfl | ⟨1, _⟩ => rfl)
theorem bidx16 (i : S10000x64.Idx) : idx_main_v15 (idx_main_v16 i) = ix1 (i 1) :=
  funext fun a => Fin.ext (by match a with | ⟨0, _⟩ => rfl)
theorem lidx19 (i : S10000x64.Idx) (k : Fin 128) : lidx_main_v19 i k = ix2 (i 0) k :=
  funext fun a => Fin.ext (by match a with | ⟨0, _⟩ => rfl | ⟨1, _⟩ => rfl)
theorem ridx19 (i : S10000x64.Idx) (k : Fin 128) : idx_main_v18 (ridx_main_v19 i k) = ix2 (i 1) k :=
  funext fun a => Fin.ext (by match a with | ⟨0, _⟩ => rfl | ⟨1, _⟩ => rfl)
theorem bidx21 (i : S10000x64.Idx) : idx_main_v20 (idx_main_v21 i) = ix1 (i 1) :=
  funext fun a => Fin.ext (by match a with | ⟨0, _⟩ => rfl)
theorem lidx25 (i : S10000x64.Idx) (k : Fin 64) : lidx_main_v25 i k = ix2 (i 0) k :=
  funext fun a => Fin.ext (by match a with | ⟨0, _⟩ => rfl | ⟨1, _⟩ => rfl)
theorem ridx25 (i : S10000x64.Idx) (k : Fin 64) : idx_main_v24 (ridx_main_v25 i k) = ix2 (i 1) k :=
  funext fun a => Fin.ext (by match a with | ⟨0, _⟩ => rfl | ⟨1, _⟩ => rfl)
theorem bidx27 (i : S10000x64.Idx) : idx_main_v26 (idx_main_v27 i) = ix1 (i 1) :=
  funext fun a => Fin.ext (by match a with | ⟨0, _⟩ => rfl)

/-! ## The stages -/

section Stages

variable (x0 : Cert.Encoder.Mat 10000 128) (x1 : Cert.Encoder.Mat 10000 10000) (x2 : Cert.Encoder.Mat 128 128)
  (x3 : Cert.Encoder.Row 128) (x4 : Cert.Encoder.Mat 64 128) (x5 : Cert.Encoder.Row 64) (x6 : Cert.Encoder.Mat 64 64)
  (x7 : Cert.Encoder.Row 64)

/-- x·W1ᵀ + b1. -/
theorem v4_eq : val_main_v4 (F := Ideal) x0 x2 x3 = Cert.Encoder.features x0 x2 x3 := by
  funext i
  rw [val_main_v4_apply, val_main_v1_apply, val_main_v3_apply, val_main_v2_apply]
  simp only [val_main_v0_apply, lidx1, ridx1, bidx3]
  rfl

/-- max(adj·features, 0). -/
theorem v6_eq : val_main_v6 (F := Ideal) x0 x1 x2 x3 = Cert.Encoder.hidden x1 (Cert.Encoder.features x0 x2 x3) := by
  funext i
  rw [val_main_v6_apply, val_main_v5_apply, val_main_call0_v0_apply, val_main_call0_cst_apply, v4_eq]
  simp only [lidx5, ridx5]
  rfl

/-- The first layer of the first head: max(h·Waᵀ + ba, 0). -/
theorem v12_eq : val_main_v12 (F := Ideal) x0 x1 x2 x3 x4 x5
    = Cert.Encoder.relu (Cert.Encoder.plusRow (Cert.Encoder.timesT (val_main_v6 (F := Ideal) x0 x1 x2 x3) x4) x5) := by
  funext i
  rw [val_main_v12_apply, val_main_v11_apply, val_main_v8_apply, val_main_v10_apply, val_main_v9_apply,
    val_main_call1_v0_apply, val_main_call1_cst_apply]
  simp only [val_main_v7_apply, lidx8, ridx8, bidx10]
  rfl

/-- The second layer of the first head: g·Wbᵀ + bb. -/
theorem v17_eq : val_main_v17 (F := Ideal) x0 x1 x2 x3 x4 x5 x6 x7
    = Cert.Encoder.plusRow (Cert.Encoder.timesT (val_main_v12 (F := Ideal) x0 x1 x2 x3 x4 x5) x6) x7 := by
  funext i
  rw [val_main_v17_apply, val_main_v14_apply, val_main_v16_apply, val_main_v15_apply]
  simp only [val_main_v13_apply, lidx14, ridx14, bidx16]
  rfl

/-- The first layer of the second head. -/
theorem v23_eq : val_main_v23 (F := Ideal) x0 x1 x2 x3 x4 x5
    = Cert.Encoder.relu (Cert.Encoder.plusRow (Cert.Encoder.timesT (val_main_v6 (F := Ideal) x0 x1 x2 x3) x4) x5) := by
  funext i
  rw [val_main_v23_apply, val_main_v22_apply, val_main_v19_apply, val_main_v21_apply, val_main_v20_apply,
    val_main_call2_v0_apply, val_main_call2_cst_apply]
  simp only [val_main_v18_apply, lidx19, ridx19, bidx21]
  rfl

/-- The second layer of the second head. -/
theorem v28_eq : val_main_v28 (F := Ideal) x0 x1 x2 x3 x4 x5 x6 x7
    = Cert.Encoder.plusRow (Cert.Encoder.timesT (val_main_v23 (F := Ideal) x0 x1 x2 x3 x4 x5) x6) x7 := by
  funext i
  rw [val_main_v28_apply, val_main_v25_apply, val_main_v27_apply, val_main_v26_apply]
  simp only [val_main_v24_apply, lidx25, ridx25, bidx27]
  rfl

/-- On the extended reals the negation is the difference from zero. -/
theorem neg_eq_zero_sub (y : Ideal .f32) : FloatOps.hostNegf y = FloatOps.subf Cert.Encoder.zero y := by
  show -y = Ideal.ofBits .f32 0x00000000#32 - y
  rw [Ideal.ofBits_zero_f32, zero_sub]

/-- No extended real differs from itself. -/
theorem cmp_une_self (a : Ideal .f32) : FloatOps.cmpf .une a a = 0#1 := by
  show Ideal.cmp .une a a = 0#1
  simp [Ideal.cmp]

/-- The soft-plus: the guard against an undefined difference never fires, and what is left is
    max(v, 0) + log(1 + exp(0 − |v − 0|)). -/
theorem v29_eq : val_main_v29 (F := Ideal) x0 x1 x2 x3 x4 x5 x6 x7
    = Cert.Encoder.softplus (val_main_v28 (F := Ideal) x0 x1 x2 x3 x4 x5 x6 x7) := by
  funext i
  rw [val_main_v29_apply, val_main_call3_v4_apply, cmp_une_self, select_zero, val_main_call3_v11_apply,
    val_main_call3_v1_apply, val_main_call3_v10_apply, val_main_call3_v9_apply, val_main_call3_v8_apply,
    val_main_call3_v7_apply, val_main_call3_v3_apply, val_main_call3_v0_apply, val_main_call3_v2_apply,
    val_main_call3_cst_apply, neg_eq_zero_sub]
  rfl

/-- The mean result. -/
theorem v17_mean : val_main_v17 (F := Ideal) x0 x1 x2 x3 x4 x5 x6 x7 = Cert.Encoder.mean x0 x1 x2 x3 x4 x5 x6 x7 := by
  rw [v17_eq, v12_eq, v6_eq]
  rfl

/-- The spread result. -/
theorem v29_spread : val_main_v29 (F := Ideal) x0 x1 x2 x3 x4 x5 x6 x7 = Cert.Encoder.spread x0 x1 x2 x3 x4 x5 x6 x7 := by
  rw [v29_eq, v28_eq, v23_eq, v6_eq]
  rfl

end Stages

/-! ## The reference's run, read as the specification -/

/-- The term the run states for the mean result is the specification's mean of the arguments. -/
theorem mean_eq (m : (ℓ : Loc nD τ sig) → Buf (Elt Ideal) ℓ) (c : Dev nD) :
    addf (Host.dotGeneral (φ₁ := .f32) (φ₂ := .f32) dot_S10000x64_S64x64_S10000x64_1_0_0_1_n_n none (maximumf (addf (Host.dotGeneral (φ₁ := .f32) (φ₂ := .f32) dot_S10000x128_S128x64_S10000x64_1_0_0_1_n_n none (maximumf (Host.dotGeneral (φ₁ := .f32) (φ₂ := .f32) dot_S10000x10000_S10000x128_S10000x128_1_0_0_1_n_n none (m ((c.tc : Thread nD τ).loc main_arg1)) (addf (Host.dotGeneral (φ₁ := .f32) (φ₂ := .f32) dot_S10000x128_S128x128_S10000x128_1_0_0_1_n_n none (m ((c.tc : Thread nD τ).loc main_arg0)) (transpose S128x128 [1, 0] (m ((c.tc : Thread nD τ).loc main_arg2)) transposes_S128x128_S128x128_1_0)) (broadcastInDim S10000x128 ![0, 1] bcast_S1x128_S10000x128_0_1 (broadcastInDim S1x128 ![1] bcast_S128_S1x128_1 (m ((c.tc : Thread nD τ).loc main_arg3)))))) (broadcastInDim S10000x128 ![] bcast_S_S10000x128 (constant (F := Ideal) S_ .f32 0x00000000#32))) (transpose S128x64 [1, 0] (m ((c.tc : Thread nD τ).loc main_arg4)) transposes_S64x128_S128x64_1_0)) (broadcastInDim S10000x64 ![0, 1] bcast_S1x64_S10000x64_0_1 (broadcastInDim S1x64 ![1] bcast_S64_S1x64_1 (m ((c.tc : Thread nD τ).loc main_arg5))))) (broadcastInDim S10000x64 ![] bcast_S_S10000x64 (constant (F := Ideal) S_ .f32 0x00000000#32))) (transpose S64x64 [1, 0] (m ((c.tc : Thread nD τ).loc main_arg6)) transposes_S64x64_S64x64_1_0)) (broadcastInDim S10000x64 ![0, 1] bcast_S1x64_S10000x64_0_1 (broadcastInDim S1x64 ![1] bcast_S64_S1x64_1 (m ((c.tc : Thread nD τ).loc main_arg7))))
      = Cert.Encoder.mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (val_main_v17_eq (F := Ideal) _ _ _ _ _ _ _ _).trans (v17_mean _ _ _ _ _ _ _ _)

/-- The term the run names for the spread result is the specification's spread of the arguments. -/
theorem spread_eq (m : (ℓ : Loc nD τ sig) → Buf (Elt Ideal) ℓ) (c : Dev nD) :
    Cert.ReferenceIdeal.Value.res_main_v29 (F := Ideal) m c
      = Cert.Encoder.spread (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) :=
  (val_main_v29_eq (F := Ideal) m c).trans (v29_spread _ _ _ _ _ _ _ _)

/-- Every weakly fair execution of the reference ends with its results at the specification's mean (twice) and spread
    of the arguments it was launched with, the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
      r.2.mem ((c.tc : Thread nD τ).loc main_v17) = Cert.Encoder.mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v17) = Cert.Encoder.mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v29) = Cert.Encoder.spread (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (Cert.ReferenceIdeal.defs (F := Ideal)) _ _).mono
    (fun _ h c => ⟨(h c).1.trans (mean_eq m c), (h c).2.1.trans (mean_eq m c), (h c).2.2.1.trans (spread_eq m c), (h c).2.2.2⟩)
    (Cert.ReferenceIdeal.Value.run (F := Ideal) m ρ)

end Cert.RefValue

end
-- ==== Proof.lean ====
/-
  The certificate of a fused graph-encoder kernel against its reference.

  The kernel runs one grid of twenty row blocks of the dense adjacency matrix. At the first block it forms the
  projected features x·W1ᵀ + b1 and keeps them in a scratch buffer for every later block; at each block it multiplies
  the block's 512 adjacency rows by the kept features, clamps at zero, applies the two small two-layer heads and stores
  one 512 × 64 block of the mean result and one of the spread result (the soft-plus of the second head). The last block
  overhangs the 10000-row arrays by 240 rows: its fetch and its write-backs are cut to the 272 rows inside.

  Frames. The word-level kernel's frame forgets what the body leaves in the two result windows (at the word level the
  matrix unit is opaque in a whole operand, so the last block's results cannot be named apart from the rows past the
  array's end) and keeps the scratch at anything. The idealized kernel's frame and value come from ONE run with exact
  proof data, the scratch tracked as the projected features from the first block on. The reference's frame is its run
  with the results dropped.

  Value. On the extended reals a row of a matrix product depends on that row of the left operand only, so every
  written-back entry is the encoder's entry at its place in the array, whatever filled the staged rows past the array's
  end; the row blocks cover the result arrays. The reference's run is the same function, operation by operation: its
  transposed weights contract the same coordinate, its soft-plus selects on a test that never holds on the extended
  reals, and its negation of |v| is 0 − |v|. No law beyond the finite sums' own is used, so the precondition is never
  opened. The ideal pass rewrote nothing, so the idealization claim is trivial.
-/
import proofs.«174787_g59639915872695_cont_sun_m_860_22_alg».proof.Defs
import proofs.«174787_g59639915872695_cont_sun_m_860_22_alg».proof.Proof.Gen.Kernel
import proofs.«174787_g59639915872695_cont_sun_m_860_22_alg».proof.Proof.Gen.KernelIdeal
import proofs.«174787_g59639915872695_cont_sun_m_860_22_alg».proof.Proof.Gen.ReferenceIdeal
import proofs.«174787_g59639915872695_cont_sun_m_860_22_alg».proof.Proof.Gen.Pre_finite_inputs
import proofs.«174787_g59639915872695_cont_sun_m_860_22_alg».proof.Proof.Bits.Frame
import proofs.«174787_g59639915872695_cont_sun_m_860_22_alg».proof.Proof.Ideal.Result
import proofs.«174787_g59639915872695_cont_sun_m_860_22_alg».proof.Proof.RefValue
import Idealize.ShloMosaic.Adequacy
import Idealize.ShloMosaic.Init

noncomputable section

namespace Cert.Proof

open Idealize.ShloMosaic Idealize.ShloMosaic.TcCoe Idealize.SL.Sem

section Claims
variable [Cert.Kernel.Facts] [Cert.KernelIdeal.Facts] [Cert.ReferenceIdeal.Facts] [Cert.Pre_finite_inputs.Facts]

theorem frame_k : Cert.frame_Kernel := fun m ρ _ => Cert.Kernel.Region.frame (F := Bits) m ρ

theorem frame_ki : Cert.frame_KernelIdeal := fun m ρ _ =>
  Cert.KernelIdeal.Gen.frame_of m ρ (Cert.KernelIdeal.Region.dats m) (Cert.KernelIdeal.Region.A_eq m)
    (Cert.KernelIdeal.Region.run_main m ρ (Cert.KernelIdeal.Result.meanLocal m) (Cert.KernelIdeal.Result.spreadLocal m))

theorem frame_ri : Cert.frame_ReferenceIdeal := fun m ρ _ =>
  (θ_run Cert.ReferenceIdeal.defs _ _).mono (fun _ h c => (h c).2.2.2) (Cert.RefValue.ref_run m ρ)

theorem preserves : Cert.preserves_Kernel_KernelIdeal := trivial

/-- Both idealized programs end with the encoder's mean (twice) and spread of arguments that agree. -/
theorem algebraic : Cert.algebraic_KernelIdeal_ReferenceIdeal := by
  intro m ρ m' ρ' _ hagree
  refine ⟨fun c => Cert.Encoder.mean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Cert.Encoder.mean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Cert.Encoder.spread (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Result.kernel_run m ρ, ?_⟩
  refine (θ_run Cert.ReferenceIdeal.defs _ _).mono (fun r h c => ?_) (Cert.RefValue.ref_run m' ρ')
  obtain ⟨e0, e1, e2, e3, e4, e5, e6, e7, e8, e9, e10, e11⟩ := hagree c
  have hc := h c
  refine ⟨hc.1.trans ?_, hc.2.1.trans ?_, hc.2.2.1.trans ?_, hc.2.2.2⟩
  · rw [e0, e1, e2, e3, e4, e5, e6, e7]
  · rw [e0, e1, e2, e3, e4, e5, e6, e7]
  · rw [e0, e1, e2, e3, e8, e9, e10, e11]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
